-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096 : S_.BroadcastsInDim S4096 (![] : Fin 0 → Fin S4096.rank)
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  reducesTo_S4096_S_d0 : S4096.ReducesTo [0] S_

variable [Facts]

def fn_part1 {F : FTy → Type} [FloatOps F] (main_v4 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .sle main_v4 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x512 .f32) (main_arg1 : IVec S4096 32) (main_arg2 : FVec F S10000x512 .f32) : IVec S_ 1 :=
  let main_c : IVec S_ 32 := constantI S_ 32 0#32
  let main_v0 : IVec S4096 32 := broadcastInDim S4096 ![] bcast_S_S4096 main_c
  let main_v1 : IVec S4096 1 := cmpi .slt main_arg1 main_v0
  let main_c_0 : IVec S_ 32 := constantI S_ 32 10000#32
  let main_v2 : IVec S4096 32 := broadcastInDim S4096 ![] bcast_S_S4096 main_c_0
  let main_v3 : IVec S4096 32 := addi main_arg1 main_v2
  let main_v4 : IVec S4096 32 := select main_v1 main_v3 main_arg1
  let main_v5 : FVec F S4096x512 .f32 := Host.absf main_arg0
  let main_cst : FVec F S_ .f32 := constant S_ .f32 0x7F800000#32
  let main_v6 : FVec F S4096x512 .f32 := broadcastInDim S4096x512 ![] bcast_S_S4096x512 main_cst
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : FVec F S10000x512 .f32 := Host.absf main_arg2
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_v4 main_v14
  let main_c_5 : IVec S_ 32 := constantI S_ 32 9999#32
  fn_part1 (F := F) main_v4 main_v13 main_v15 main_c_5
-- ==== Kernel.lean ====
abbrev S4096x512 : Shape := ⟨2, ![4096, 512]⟩
abbrev S4096 : Shape := ⟨1, ![4096]⟩
abbrev S10000x512 : Shape := ⟨2, ![10000, 512]⟩
abbrev S10000x1 : Shape := ⟨2, ![10000, 1]⟩
abbrev S1000x512 : Shape := ⟨2, ![1000, 512]⟩
abbrev S1000x1 : Shape := ⟨2, ![1000, 1]⟩
abbrev S1000 : Shape := ⟨1, ![1000]⟩
abbrev S1x10000 : Shape := ⟨2, ![1, 10000]⟩
abbrev S128x512 : Shape := ⟨2, ![128, 512]⟩
abbrev S128 : Shape := ⟨1, ![128]⟩
abbrev S128x10000 : Shape := ⟨2, ![128, 10000]⟩
abbrev S128x1 : Shape := ⟨2, ![128, 1]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 56
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S10000x512, .bf16⟩
  | .hbm, ⟨4, _⟩ => ⟨S10000x1, .f32⟩
  | .hbm, ⟨5, _⟩ => ⟨S1x10000, .f32⟩
  | .hbm, ⟨6, _⟩ => ⟨S4096, .f32⟩
  | .hbm, ⟨7, _⟩ => ⟨S4096, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S4096x512, .f32⟩
  | .hbm, ⟨27, _⟩ => ⟨S4096x512, .i1⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S1000x512, .f32⟩
  | .local _ .vmem, ⟨1, _⟩ => ⟨S1000x512, .f32⟩
  | .local _ .vmem, ⟨2, _⟩ => ⟨S1000x512, .bf16⟩
  | .local _ .vmem, ⟨3, _⟩ => ⟨S1000x512, .bf16⟩
  | .local _ .vmem, ⟨4, _⟩ => ⟨S1000x1, .f32⟩
  | .local _ .vmem, ⟨5, _⟩ => ⟨S1000x1, .f32⟩
  | .local _ .vmem, ⟨6, _⟩ => ⟨S128x512, .f32⟩
  | .local _ .vmem, ⟨7, _⟩ => ⟨S128x512, .f32⟩
  | .local _ .vmem, ⟨8, _⟩ => ⟨S10000x512, .bf16⟩
  | .local _ .vmem, ⟨9, _⟩ => ⟨S1x10000, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_v12 : Ref sig .tc := ⟨.hbm, 44, rfl⟩
abbrev main_cst_4 : Ref sig .tc := ⟨.hbm, 45, rfl⟩
abbrev main_v13 : Ref sig .tc := ⟨.hbm, 46, rfl⟩
abbrev main_cst_5 : Ref sig .tc := ⟨.hbm, 47, rfl⟩
abbrev main_v14 : Ref sig .tc := ⟨.hbm, 48, rfl⟩
abbrev main_cst_6 : Ref sig .tc := ⟨.hbm, 49, rfl⟩
abbrev main_v15 : Ref sig .tc := ⟨.hbm, 50, rfl⟩
abbrev main_cst_7 : Ref sig .tc := ⟨.hbm, 51, rfl⟩
abbrev main_v16 : Ref sig .tc := ⟨.hbm, 52, rfl⟩
abbrev main_cst_8 : Ref sig .tc := ⟨.hbm, 53, rfl⟩
abbrev main_v17 : Ref sig .tc := ⟨.hbm, 54, rfl⟩
abbrev main_v18 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  packedbf16_S1000x512_S1000x512_0_0 : (Rect.unit (s := S1000x512) ![0, 0] S1000x512.size inb_S1000x512_S1000x512_0_0).PackedRows (EltTy.packing .bf16)
  reduces_S1000x512_S1000 : S1000x512.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S10000x1_S1x10000 : S10000x1.ShapeCasts S1x10000
  inb_S128x512_S128x512_0_0 : ∀ a, (![0, 0] : Fin 2 → Nat) a + S128x512.size a ≤ S128x512.size a
  h_S128x512 : 0 < S128x512.numel
  reduces_S128x512_S128 : S128x512.Reduces [1] S128
  inb_S128_S128_0 : ∀ a, (![0] : Fin 1 → Nat) a + S128.size a ≤ S128.size a
  h_S128 : 0 < S128.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S128x10000 : S1x10000.Broadcasts S128x10000
  reduces_S128x10000_S128 : S128x10000.Reduces [1] S128
  shapeCasts_S128_S128x1 : S128.ShapeCasts S128x1
  broadcasts_S128x1_S128x10000 : S128x1.Broadcasts S128x10000
  shapeCasts_S128x1_S128 : S128x1.ShapeCasts S128
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x512_0 : S4096.BroadcastsInDim S4096x512 (![0] : Fin 1 → Fin S4096x512.rank)
  bcast_S_S4096x512 : S_.BroadcastsInDim S4096x512 (![] : Fin 0 → Fin S4096x512.rank)
  reducesTo_S4096x512_S4096_d1 : S4096x512.ReducesTo [1] S4096
  reducesTo_S4096_S_d0 : S4096.ReducesTo [0] S_
  dot_S128x512_S10000x512_S128x10000_1_1_0_0_n_n_wf : DotDims.WF S128x512 S10000x512 S128x10000 [1] [1] [0] [0] [] []
  gather_S10000x512_S4096x1_S4096x512_1_0_n_n_0_1_1512_wf : GatherDims.WF S10000x512 S4096x1 S4096x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .bf16 = 32 ∨ (Rect.block (s := S10000x512) S1000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S4096x512.size a
  hwx1_0 : ∀ i : grid1.Coords, EltTy.bits .f32 = 32 ∨ (Rect.block (s := S4096x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10000.size a ≤ S1x10000.size a
  hwx1_2 : ∀ i : grid1.Coords, EltTy.bits .f32 = 32 ∨ (Rect.block (s := S1x10000) S1x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S4096.size a
  hwx1_3 : ∀ i : grid1.Coords, EltTy.bits .f32 = 32 ∨ (Rect.block (s := S4096) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S4096.size a
  hwx1_4 : ∀ i : grid1.Coords, EltTy.bits .f32 = 32 ∨ (Rect.block (s := S4096) S128.size (cc1_transform_4 i) (hinb1_4 i)).WholeWords (EltTy.packing .f32)

variable [Facts₀]

def dot_S128x512_S10000x512_S128x10000_1_1_0_0_n_n : DotDims S128x512 S10000x512 S128x10000 where
  lhsContracting := [1]
  rhsContracting := [1]
  lhsNonContracting := [0]
  rhsNonContracting := [0]
  lhsBatch := []
  rhsBatch := []
  wf := dot_S128x512_S10000x512_S128x10000_1_1_0_0_n_n_wf
def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf

abbrev win0_0 : Pipeline.Window sig grid0 :=
  Pipeline.Window.ofSpec (Memref.whole main_arg2) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1000x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S4096x10000 : Shape := ⟨2, ![4096, 10000]⟩
abbrev S1x10000 : Shape := ⟨2, ![1, 10000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S10000x512, .f32⟩
  | .hbm, ⟨25, _⟩ => ⟨S_, .f32⟩
  | .hbm, ⟨26, _⟩ => ⟨S10000, .f32⟩
  | .hbm, ⟨27, _⟩ => ⟨S4096x10000, .f32⟩
  | .hbm, ⟨28, _⟩ => ⟨S1x10000, .f32⟩
  | .hbm, ⟨29, _⟩ => ⟨S4096x10000, .f32⟩
  | .hbm, ⟨30, _⟩ => ⟨S4096x10000, .f32⟩
  | .hbm, ⟨31, _⟩ => ⟨S4096x10000, .f32⟩
  | .hbm, ⟨32, _⟩ => ⟨S_, .f32⟩
  | .hbm, ⟨33, _⟩ => ⟨S4096x10000, .f32⟩
  | .hbm, ⟨34, _⟩ => ⟨S4096x10000, .f32⟩
  | .hbm, ⟨35, _⟩ => ⟨S4096x10000, .f32⟩
  | .hbm, ⟨36, _⟩ => ⟨S4096x10000, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x10000, .f32⟩
  | .hbm, ⟨44, _⟩ => ⟨S4096x10000, .f32⟩
  | .hbm, ⟨45, _⟩ => ⟨S4096x10000, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1, .f32⟩
  | .hbm, ⟨50, _⟩ => ⟨S4096x10000, .f32⟩
  | .hbm, ⟨51, _⟩ => ⟨S4096x10000, .f32⟩
  | .hbm, ⟨52, _⟩ => ⟨S4096x1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S_, .i32⟩
  | .hbm, ⟨57, _⟩ => ⟨S4096x1, .i32⟩
  | .hbm, ⟨58, _⟩ => ⟨S4096x1, .i32⟩
  | .hbm, ⟨59, _⟩ => ⟨S4096x1, .i32⟩
  | .hbm, ⟨60, _⟩ => ⟨S4096x1x1, .i32⟩
  | .hbm, ⟨61, _⟩ => ⟨S1, .i32⟩
  | .hbm, ⟨62, _⟩ => ⟨S_, .i32⟩
  | .hbm, ⟨63, _⟩ => ⟨S4096x1x1, .i32⟩
  | .hbm, ⟨64, _⟩ => ⟨S4096x1x1, .i1⟩
  | .hbm, ⟨65, _⟩ => ⟨S1x1x1, .i32⟩
  | .hbm, ⟨66, _⟩ => ⟨S4096x1x1, .i32⟩
  | .hbm, ⟨67, _⟩ => ⟨S4096x1x1, .i1⟩
  | .hbm, ⟨68, _⟩ => ⟨S4096x1x1, .i1⟩
  | .hbm, ⟨69, _⟩ => ⟨S_, .i1⟩
  | .hbm, ⟨70, _⟩ => ⟨S4096x1, .i1⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_cst_1 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_v26 : Ref sig .tc := ⟨.hbm, 51, rfl⟩
abbrev main_v27 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_cst : Ref sig .tc := ⟨.hbm, 72, rfl⟩
abbrev main_call1_v14 : Ref sig .tc := ⟨.hbm, 73, rfl⟩
abbrev main_v28 : Ref sig .tc := ⟨.hbm, 74, rfl⟩
abbrev main_cst_6 : Ref sig .tc := ⟨.hbm, 75, rfl⟩
abbrev main_v29 : Ref sig .tc := ⟨.hbm, 76, rfl⟩
abbrev main_cst_7 : Ref sig .tc := ⟨.hbm, 77, rfl⟩
abbrev main_v30 : Ref sig .tc := ⟨.hbm, 78, rfl⟩
abbrev main_v31 : Ref sig .tc := ⟨.hbm, 79, rfl⟩
abbrev main_cst_8 : Ref sig .tc := ⟨.hbm, 80, rfl⟩
abbrev main_v32 : Ref sig .tc := ⟨.hbm, 81, rfl⟩
abbrev main_cst_9 : Ref sig .tc := ⟨.hbm, 82, rfl⟩
abbrev main_v33 : Ref sig .tc := ⟨.hbm, 83, rfl⟩
abbrev main_cst_10 : Ref sig .tc := ⟨.hbm, 84, rfl⟩
abbrev main_v34 : Ref sig .tc := ⟨.hbm, 85, rfl⟩
abbrev main_cst_11 : Ref sig .tc := ⟨.hbm, 86, rfl⟩
abbrev main_v35 : Ref sig .tc := ⟨.hbm, 87, rfl⟩
abbrev main_v36 : Ref sig .tc := ⟨.hbm, 88, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x512_S_d0_1 : S4096x512.ReducesTo [0, 1] S_
  h_S_ : 0 < S_.numel
  reducesTo_S4096x512_S4096_d1 : S4096x512.ReducesTo [1] S4096
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  reducesTo_S4096x10000_S4096_d1 : S4096x10000.ReducesTo [1] S4096
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  gather_S10000x512_S4096x1_S4096x512_1_0_n_n_0_1_1512_wf : GatherDims.WF S10000x512 S4096x1 S4096x512 [1] [0] [] [0] [] 1 ![1, 512]
  dot_S4096x512_S10000x512_S4096x10000_1_1_0_0_n_n_wf : DotDims.WF S4096x512 S10000x512 S4096x10000 [1] [1] [0] [0] [] []
  gather_S4096x10000_S4096x1x1_S4096x1_n_1_0_0_1_2_11_wf : GatherDims.WF S4096x10000 S4096x1x1 S4096x1 [] [1] [0] [1] [0] 2 ![1, 1]

variable [Facts₀]

def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf
def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf
def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf

class Facts : Prop extends Facts₀ where

variable [Facts]
-- ==== Proof.Spec.lean ====
/-
  The two programs' three results, written as explicit functions on the extended reals of
  x : the 4096 x 512 features, w : the 10000 x 512 class centres, l : the centre row each sample reads.

  The kernel side: with  cross n c = sum_d x n d * w c d  and  csq c = sum_d w c d ^ 2,
    s n c = 2 * cross n c - csq c,   m n = max_c s n c,   lse n = m n + log (sum_c exp (s n c - m n)),
    sqd n = sum_d (x n d - w (l n) d) ^ 2,
    centre loss = (sum_n sqd n) / 2 / 4096,
    dda loss    = (sum_n ((lse n - fsq n) + sqd n)) / 4096 / 4096 / 2,   fsq n = sum_d x n d ^ 2.
  The reference side: dist n c = -((fsq n + csq c) - 2 * cross n c), the log-softmax of dist along c
  (shifted by the row maximum), read at column l n, averaged and negated.
  The literal words (2, 4096, 0.01, 3, -inf) are kept as the words both programs carry.
-/
import Idealize.ShloMosaic.PureOps.Ideal
import Idealize.ShloMosaic.Lib.ValueIdx

noncomputable section

namespace Cert.Spec

open Idealize.ShloMosaic

/-! ## The literal words, read at the extended reals -/

abbrev two : EReal := Ideal.ofBits .f32 0x40000000#32
abbrev n4096 : EReal := Ideal.ofBits .f32 0x45800000#32
abbrev lamb : EReal := Ideal.ofBits .f32 0x3C23D70A#32
abbrev three : EReal := Ideal.ofBits .f32 0x40400000#32
abbrev negInf : EReal := Ideal.ofBits .f32 0xFF800000#32

/-! ## The row index both programs gather with -/

/-- A label word with numpy's rule for a negative index applied: a negative label counts from the end. -/
def normIdx (b : BitVec 32) : BitVec 32 := Scalar.select (IntOp.cmpi .slt b 0#32) (IntOp.addi b 10000#32) b

/-- The normalized index lies inside the 10000 rows (the two signed comparisons both programs make). -/
def InRange (b : BitVec 32) : Prop :=
  IntOp.cmpi .sge (normIdx b) 0#32 = 1#1 ∧ IntOp.cmpi .sle (normIdx b) 9999#32 = 1#1

/-- The row of the centre table a gather reads for a label word: the normalized index read signed and
    clamped into the table (the clamp is the identity on an index that is in range). -/
def rowOf (b : BitVec 32) : Fin 10000 := ⟨min (normIdx b).toInt.toNat 9999, by omega⟩

/-! ## The shared sums -/

variable (x : Fin 4096 → Fin 512 → EReal) (w : Fin 10000 → Fin 512 → EReal) (l : Fin 4096 → Fin 10000)

/-- The squared norm of sample n. -/
def fsq (n : Fin 4096) : EReal := ∑ d : Fin 512, x n d * x n d
/-- The squared norm of centre c. -/
def csq (c : Fin 10000) : EReal := ∑ d : Fin 512, w c d * w c d
/-- The inner product of sample n and centre c. -/
def cross (n : Fin 4096) (c : Fin 10000) : EReal := ∑ d : Fin 512, x n d * w c d
/-- The squared distance of sample n to its own centre. -/
def sqd (n : Fin 4096) : EReal := ∑ d : Fin 512, (x n d - w (l n) d) * (x n d - w (l n) d)

/-! ## The kernel's results -/

/-- The logit without the sample's own norm. -/
def sK (n : Fin 4096) (c : Fin 10000) : EReal := two * cross x w n c - csq w c
/-- Its row maximum, folded from -inf. -/
def mK (n : Fin 4096) : EReal := (Finset.univ : Finset (Fin 10000)).fold max negInf (fun c => sK x w n c)
/-- Its row log-sum-exp. -/
def lseK (n : Fin 4096) : EReal := mK x w n + Ideal.log (∑ c : Fin 10000, Ideal.exp (sK x w n c - mK x w n))
/-- The centre loss. -/
def centerK : EReal := Ideal.div (Ideal.div (∑ n : Fin 4096, sqd x w l n) two) n4096
/-- The second loss. -/
def ddaK : EReal :=
  Ideal.div (Ideal.div (Ideal.div (∑ n : Fin 4096, ((lseK x w n - fsq x n) + sqd x w l n)) n4096) n4096) two
/-- The total loss. -/
def lossK : EReal := lamb * centerK x w l + three * ddaK x w l

/-! ## The reference's results -/

/-- The negated squared distance of sample n to centre c, expanded. -/
def dist (n : Fin 4096) (c : Fin 10000) : EReal := -((fsq x n + csq w c) - two * cross x w n c)
/-- Its row maximum: folded from -inf, then once more against -inf. -/
def mR (n : Fin 4096) : EReal := max negInf ((Finset.univ : Finset (Fin 10000)).fold max negInf (fun c => dist x w n c))
/-- The shifted logit. -/
def shR (n : Fin 4096) (c : Fin 10000) : EReal := dist x w n c - mR x w n
/-- The log-softmax. -/
def logpR (n : Fin 4096) (c : Fin 10000) : EReal := shR x w n c - Ideal.log (∑ c' : Fin 10000, Ideal.exp (shR x w n c'))
/-- The centre loss. -/
def centerR : EReal :=
  Ideal.div (Ideal.div (∑ n : Fin 4096, ∑ d : Fin 512, (x n d - w (l n) d) * (x n d - w (l n) d)) two) n4096
/-- The second loss. -/
def ddaR : EReal :=
  Ideal.div (Ideal.div (-(Ideal.div (∑ n : Fin 4096, logpR x w n (l n)) n4096)) n4096) two
/-- The total loss. -/
def lossR : EReal := lamb * centerR x w l + three * ddaR x w l

end Cert.Spec

end
-- ==== Proof.Math.lean ====
/-
  The algebra that joins the two programs: on finite inputs the kernel's three results (Spec.*K) are the
  reference's (Spec.*R).
-/
import proofs.«416865_j89129161327199_2_alg».proof.Proof.Spec

noncomputable section

namespace Cert.Math

open Idealize.ShloMosaic Cert.Spec

/-! ## The literal words -/

theorem two_eq : two = ((2 : ℝ) : EReal) := by
  simp [Ideal.ofBits, Ideal.ieee, -EReal.coe_mul]; norm_num

theorem n4096_eq : n4096 = ((4096 : ℝ) : EReal) := by
  simp [Ideal.ofBits, Ideal.ieee, -EReal.coe_mul]; norm_num

theorem negInf_eq : negInf = (⊥ : EReal) := by
  simp [Ideal.ofBits, Ideal.ieee]

/-- Dividing the negation of a real by the word 4096 negates the quotient. -/
theorem div_neg_coe (R : ℝ) :
    Ideal.div ((-R : ℝ) : EReal) n4096 = -(Ideal.div (R : EReal) n4096) := by
  rw [n4096_eq, Ideal.div_coe (y := 4096) (by norm_num), Ideal.div_coe (y := 4096) (by norm_num),
    ← EReal.coe_mul, ← EReal.coe_mul, ← EReal.coe_neg]
  congr 1; ring

/-! ## Finite sums and folded maxima of reals, read in the extended reals -/

section General

variable {ι : Type*}

/-- The coercion of a finite real sum is the sum of the coercions. -/
theorem coe_sum (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The sum of squared differences, expanded: sum (a-b)^2 = sum a^2 - (2 sum ab - sum b^2). -/
theorem sum_sq_sub (s : Finset ι) (a b : ι → ℝ) :
    ∑ d ∈ s, (a d - b d) * (a d - b d)
      = (∑ d ∈ s, a d * a d) - (2 * (∑ d ∈ s, a d * b d) - ∑ d ∈ s, b d * b d) := by
  rw [Finset.mul_sum, ← Finset.sum_sub_distrib, ← Finset.sum_sub_distrib]
  exact Finset.sum_congr rfl (fun d _ => by ring)

/-- The maximum of a nonempty real family folded from -inf is a real M, and shifting the family by a
    real a shifts the folded maximum to M - a. -/
theorem fold_max_pair (s : Finset ι) (hs : s.Nonempty) (f : ι → ℝ) (a : ℝ) :
    ∃ M : ℝ, s.fold max (⊥ : EReal) (fun c => (f c : EReal)) = (M : EReal) ∧
      s.fold max (⊥ : EReal) (fun c => ((f c - a : ℝ) : EReal)) = ((M - a : ℝ) : EReal) := by
  induction hs using Finset.Nonempty.cons_induction with
  | singleton i =>
    refine ⟨f i, ?_, ?_⟩ <;> rw [Finset.fold_singleton] <;> exact max_bot_right _
  | cons i s hi hs ih =>
    obtain ⟨M, h1, h2⟩ := ih
    refine ⟨max (f i) M, ?_, ?_⟩
    · rw [Finset.fold_cons, h1]
      exact (EReal.coe_strictMono.monotone.map_max).symm
    · rw [Finset.fold_cons, h2, ← max_sub_sub_right]
      exact (EReal.coe_strictMono.monotone.map_max).symm

end General

/-! ## One row: the log-softmax read at one column against the log-sum-exp

For a real row s, a real shift a and a column j: with M the row maximum, the reference's shifted logits
(s c - a) - (M - a) are the kernel's s c - M, so both programs take the logarithm of the same positive real
T = sum_c exp (s c - M).  The reference's entry is r = (s j - a) - (M - a) - log T, and the kernel's
(M + log T - a) + (a - s j) is -r. -/

section Row

variable {ι : Type*} [Fintype ι] [Nonempty ι]

theorem row_eq (s : ι → ℝ) (a : ℝ) (j : ι) (mK mR : EReal)
    (hK : mK = Finset.univ.fold max (⊥ : EReal) (fun c => (s c : EReal)))
    (hR : mR = max (⊥ : EReal)
      (Finset.univ.fold max (⊥ : EReal) (fun c => ((s c - a : ℝ) : EReal)))) :
    ∃ r : ℝ,
      (((s j - a : ℝ) : EReal) - mR)
          - Ideal.log (∑ c, Ideal.exp (((s c - a : ℝ) : EReal) - mR)) = (r : EReal) ∧
      ((mK + Ideal.log (∑ c, Ideal.exp ((s c : EReal) - mK))) - (a : EReal))
          + ((a - s j : ℝ) : EReal) = ((-r : ℝ) : EReal) := by
  obtain ⟨M, h1, h2⟩ := fold_max_pair Finset.univ Finset.univ_nonempty s a
  rw [h1] at hK
  rw [h2, max_eq_right bot_le] at hR
  subst hK hR
  have hT : (0 : ℝ) < ∑ c, Real.exp (s c - M) :=
    Finset.sum_pos (fun c _ => Real.exp_pos _) Finset.univ_nonempty
  have eK : (∑ c, Ideal.exp ((s c : EReal) - (M : EReal)))
      = ((∑ c, Real.exp (s c - M) : ℝ) : EReal) := by
    rw [coe_sum]
    refine Finset.sum_congr rfl (fun c _ => ?_)
    rw [← EReal.coe_sub, Ideal.exp_coe]
  have eR : (∑ c, Ideal.exp (((s c - a : ℝ) : EReal) - ((M - a : ℝ) : EReal)))
      = ((∑ c, Real.exp (s c - M) : ℝ) : EReal) := by
    rw [coe_sum]
    refine Finset.sum_congr rfl (fun c _ => ?_)
    rw [← EReal.coe_sub, Ideal.exp_coe]
    congr 2; ring
  have eL : Ideal.log ((∑ c, Real.exp (s c - M) : ℝ) : EReal)
      = ((Real.log (∑ c, Real.exp (s c - M)) : ℝ) : EReal) := by
    rw [Ideal.log_coe, if_neg (not_le.mpr hT)]
  refine ⟨(s j - a) - (M - a) - Real.log (∑ c, Real.exp (s c - M)), ?_, ?_⟩
  · rw [eR, eL, ← EReal.coe_sub, ← EReal.coe_sub]
  · rw [eK, eL, ← EReal.coe_add, ← EReal.coe_sub, ← EReal.coe_add]
    congr 1; ring

end Row

/-! ## The shared sums on real inputs -/

section Link

variable (x : Fin 4096 → Fin 512 → EReal) (w : Fin 10000 → Fin 512 → EReal) (l : Fin 4096 → Fin 10000)
variable (xr : Fin 4096 → Fin 512 → ℝ) (wr : Fin 10000 → Fin 512 → ℝ)

/-- The real squared norm of sample n. -/
def FSQ (n : Fin 4096) : ℝ := ∑ d : Fin 512, xr n d * xr n d
/-- The real squared norm of centre c. -/
def CSQ (c : Fin 10000) : ℝ := ∑ d : Fin 512, wr c d * wr c d
/-- The real inner product of sample n and centre c. -/
def CROSS (n : Fin 4096) (c : Fin 10000) : ℝ := ∑ d : Fin 512, xr n d * wr c d
/-- The real logit without the sample's own norm. -/
def S (n : Fin 4096) (c : Fin 10000) : ℝ := 2 * CROSS xr wr n c - CSQ wr c

theorem fsq_coe (hx : ∀ n d, x n d = (xr n d : EReal)) (n : Fin 4096) :
    fsq x n = (FSQ xr n : EReal) := by
  unfold fsq FSQ
  rw [coe_sum]
  exact Finset.sum_congr rfl (fun d _ => by rw [hx, EReal.coe_mul])

theorem csq_coe (hw : ∀ c d, w c d = (wr c d : EReal)) (c : Fin 10000) :
    csq w c = (CSQ wr c : EReal) := by
  unfold csq CSQ
  rw [coe_sum]
  exact Finset.sum_congr rfl (fun d _ => by rw [hw, EReal.coe_mul])

theorem cross_coe (hx : ∀ n d, x n d = (xr n d : EReal)) (hw : ∀ c d, w c d = (wr c d : EReal))
    (n : Fin 4096) (c : Fin 10000) : cross x w n c = (CROSS xr wr n c : EReal) := by
  unfold cross CROSS
  rw [coe_sum]
  exact Finset.sum_congr rfl (fun d _ => by rw [hx, hw, EReal.coe_mul])

/-- The squared distance to the own centre is the sample's norm minus the own logit. -/
theorem sqd_coe (hx : ∀ n d, x n d = (xr n d : EReal)) (hw : ∀ c d, w c d = (wr c d : EReal))
    (n : Fin 4096) : sqd x w l n = ((FSQ xr n - S xr wr n (l n) : ℝ) : EReal) := by
  unfold sqd S FSQ CROSS CSQ
  rw [← sum_sq_sub, coe_sum]
  exact Finset.sum_congr rfl (fun d _ => by rw [hx, hw, ← EReal.coe_sub, ← EReal.coe_mul])

theorem sK_coe (hx : ∀ n d, x n d = (xr n d : EReal)) (hw : ∀ c d, w c d = (wr c d : EReal))
    (n : Fin 4096) (c : Fin 10000) : sK x w n c = (S xr wr n c : EReal) := by
  unfold sK S
  rw [two_eq, cross_coe x w xr wr hx hw, csq_coe w wr hw, ← EReal.coe_mul, ← EReal.coe_sub]

/-- The reference's negated squared distance is the kernel's logit minus the sample's norm. -/
theorem dist_coe (hx : ∀ n d, x n d = (xr n d : EReal)) (hw : ∀ c d, w c d = (wr c d : EReal))
    (n : Fin 4096) (c : Fin 10000) : Spec.dist x w n c = ((S xr wr n c - FSQ xr n : ℝ) : EReal) := by
  unfold Spec.dist S
  rw [two_eq, fsq_coe x xr hx, cross_coe x w xr wr hx hw, csq_coe w wr hw, ← EReal.coe_mul,
    ← EReal.coe_add, ← EReal.coe_sub, ← EReal.coe_neg]
  congr 1; ring

/-- Per sample: the reference's log-softmax entry is a real r and the kernel's summand is -r. -/
theorem sample (hx : ∀ n d, x n d = (xr n d : EReal)) (hw : ∀ c d, w c d = (wr c d : EReal))
    (n : Fin 4096) :
    ∃ r : ℝ, logpR x w n (l n) = (r : EReal) ∧
      (lseK x w n - fsq x n) + sqd x w l n = ((-r : ℝ) : EReal) := by
  have hs : (fun c => sK x w n c) = fun c => ((S xr wr n c : ℝ) : EReal) :=
    funext (sK_coe x w xr wr hx hw n)
  have hd : (fun c => Spec.dist x w n c) = fun c => ((S xr wr n c - FSQ xr n : ℝ) : EReal) :=
    funext (dist_coe x w xr wr hx hw n)
  obtain ⟨r, h1, h2⟩ := row_eq (S xr wr n) (FSQ xr n) (l n) (mK x w n) (mR x w n)
    (by rw [mK, negInf_eq, hs]) (by rw [mR, negInf_eq, hd])
  refine ⟨r, ?_, ?_⟩
  · rw [← h1]
    unfold logpR shR
    simp only [dist_coe x w xr wr hx hw]
  · rw [← h2]
    unfold lseK
    rw [fsq_coe x xr hx, sqd_coe x w l xr wr hx hw]
    simp only [sK_coe x w xr wr hx hw]

/-- The second loss on real inputs. -/
theorem dda_real (hx : ∀ n d, x n d = (xr n d : EReal)) (hw : ∀ c d, w c d = (wr c d : EReal)) :
    ddaK x w l = ddaR x w l := by
  choose r h1 h2 using sample x w l xr wr hx hw
  have eK : (∑ n, ((lseK x w n - fsq x n) + sqd x w l n)) = ((-(∑ n, r n) : ℝ) : EReal) := by
    rw [← Finset.sum_neg_distrib, coe_sum]
    exact Finset.sum_congr rfl (fun n _ => h2 n)
  have eR : (∑ n, logpR x w n (l n)) = ((∑ n, r n : ℝ) : EReal) := by
    rw [coe_sum]
    exact Finset.sum_congr rfl (fun n _ => h1 n)
  unfold ddaK ddaR
  rw [eK, eR, div_neg_coe]

end Link

variable (x : Fin 4096 → Fin 512 → EReal) (w : Fin 10000 → Fin 512 → EReal) (l : Fin 4096 → Fin 10000)

/-- The centre loss: one double sum on both sides. -/
theorem center_eq : centerK x w l = centerR x w l := by
  rfl

/-- The second loss, on finite inputs. -/
theorem dda_eq (hx : ∀ n d, x n d ≠ ⊥ ∧ x n d ≠ ⊤) (hw : ∀ c d, w c d ≠ ⊥ ∧ w c d ≠ ⊤) :
    ddaK x w l = ddaR x w l := by
  have hx' : ∀ n d, x n d = (((x n d).toReal : ℝ) : EReal) :=
    fun n d => (EReal.coe_toReal (hx n d).2 (hx n d).1).symm
  have hw' : ∀ c d, w c d = (((w c d).toReal : ℝ) : EReal) :=
    fun c d => (EReal.coe_toReal (hw c d).2 (hw c d).1).symm
  exact dda_real x w l (fun n d => (x n d).toReal) (fun c d => (w c d).toReal) hx' hw'

/-- The total loss, on finite inputs. -/
theorem loss_eq (hx : ∀ n d, x n d ≠ ⊥ ∧ x n d ≠ ⊤) (hw : ∀ c d, w c d ≠ ⊥ ∧ w c d ≠ ⊤) :
    lossK x w l = lossR x w l := by
  unfold lossK lossR
  rw [center_eq, dda_eq x w l hx hw]

end Cert.Math

end
-- ==== Proof.PreFacts.lean ====
/-
  What the precondition says, element by element: every feature and every centre entry is a real number, and
  every label's row index (a negative label counted from the end) lies inside the 10000 rows of the centre table.
-/
import proofs.«416865_j89129161327199_2_alg».proof.Pre_finite_inputs
import proofs.«416865_j89129161327199_2_alg».proof.Proof.Spec
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

/-- The scalar shape has one index. -/
local instance : Subsingleton (Cert.Pre_finite_inputs.S_).Idx := ⟨fun a b => funext fun d => d.elim0⟩

/-- An extended real whose absolute value max x (-x) lies strictly below +inf (the word 0x7F800000) is a
    real number: at -inf and at +inf the absolute value is +inf itself. -/
theorem finite_of_abs_lt (x : EReal)
    (h : Ideal.cmp .olt (max x (-x)) (Ideal.ofBits .f32 0x7F800000#32) = 1#1) : x ≠ ⊥ ∧ x ≠ ⊤ := by
  have hT : Ideal.ofBits .f32 0x7F800000#32 = (⊤ : EReal) := by simp [Ideal.ofBits, Ideal.ieee]
  rw [hT] at h
  induction x using EReal.rec with
  | bot => simp [Ideal.cmp] at h
  | top => simp [Ideal.cmp] at h
  | coe r => exact ⟨EReal.coe_ne_bot r, EReal.coe_ne_top r⟩

/-- The precondition, decoded: both float inputs finite everywhere, every label's row index in range. -/
theorem decode [Cert.Pre_finite_inputs.Facts]
    (X : FVec Ideal ⟨2, ![4096, 512]⟩ .f32) (lab : IVec ⟨1, ![4096]⟩ 32) (C : FVec Ideal ⟨2, ![10000, 512]⟩ .f32)
    (h : Cert.Pre_finite_inputs.fn (F := Ideal) X lab C = fun _ => 1#1) :
    (∀ (n : Fin 4096) (d : Fin 512), X (ix2 n d) ≠ ⊥ ∧ X (ix2 n d) ≠ ⊤)
    ∧ (∀ (k : Fin 10000) (d : Fin 512), C (ix2 k d) ≠ ⊥ ∧ C (ix2 k d) ≠ ⊤)
    ∧ (∀ n : Fin 4096, Spec.InRange (lab (ix1 n))) := by
  have h0 := congrFun h ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  refine ⟨fun n d => ?_, fun k d => ?_, fun n => ?_⟩
  · exact finite_of_abs_lt (X (ix2 n d)) (Host.reduce_andi_all _ _ _ _ ix0 h1 (ix2 n d))
  · exact finite_of_abs_lt (C (ix2 k d)) (Host.reduce_andi_all _ _ _ _ ix0 h2 (ix2 k d))
  · exact IntOp.andi_eq_one.1 (Host.reduce_andi_all _ _ _ _ ix0 h3 (ix1 n))

end Cert.PreFacts

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.KRegion0.lean ====
/-
  The first kernel region (ten blocks of 1000 centre rows): what its two output arrays hold when the region
  ends, index by index — the copy of the centres (a change of float format is the identity on the extended
  reals) and the column of the centres' squared norms.
-/
import proofs.«416865_j89129161327199_2_alg».proof.Proof.Gen.KernelIdeal.Frame
import proofs.«416865_j89129161327199_2_alg».proof.Proof.Spec
import proofs.«416865_j89129161327199_2_alg».proof.Proof.LibVecRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the region's entry contents, a parameter as in the frame
variable (V : (c : Dev nD) → (b : Ref sig .tc) → Buf (Elt Ideal) ((c : Thread nD τ).loc b))

/-! The steps towards the two statements: the blocks each point writes, and that the blocks fill the arrays. -/
namespace Region0

/-! ## The grid and the blocks -/

/-- The zero offsets of a whole-block access, however spelt. -/
theorem zeroOff : (![0, 0] : Fin 2 → Nat) = fun _ => 0 := funext fun a => by fin_cases a <;> rfl

/-- The printed index maps over the ten points: every window's block row index is the point itself and its
    block column index is 0. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## Output window 1: the centres copied -/

/-- What window 1's array ends holding: the centre table as the region finds it. -/
abbrev centres (c : Dev nD) : S10000x512.Idx → EReal := fun i => V c main_arg2 i

/-- The narrowing payload read at an index is the loaded block there. -/
theorem pay1_apply (x0 : Vec Ideal S1000x512 .f32) (j : S1000x512.Idx) : k0_pay1 x0 j = x0 j := rfl

/-- What point `t` writes back to window 1's array is block `t` of the centre table. -/
theorem flushed1_eq (c : Dev nD) (t : Fin cfg0.N) :
    (dat0 (F := Ideal) V c).flushed 1 t = ((cfg0.win 1).blk t).view.read (Elt Ideal) (centres V c) := by
  show (cfg0.win 1).cut (grid0.coords t) ((dat0 V c).after 1 t) = _
  rw [after0_1]
  unfold out0_1
  rw [View.canon_unit_zero zeroOff]
  simp only [View.ld_unit_zero (S := S1000x512) zeroOff]
  obtain ⟨e0, e1, e2, e3, e4, e5⟩ := blockIdx0 t
  funext j
  show V c main_arg2 (((cfg0.win 0).blk t).view.emb j) = V c main_arg2 (((cfg0.win 1).blk t).view.emb j)
  -- both windows' blocks at point t sit at the same rows of their (equally shaped) arrays
  have h : ((cfg0.win 0).blk t).view.emb j = ((cfg0.win 1).blk t).view.emb j := by
    funext a; apply Fin.ext
    match a with
    | ⟨0, _⟩ => show win0_0.index t (0 : Fin 2) * 1000 + 1 * (j 0).val = win0_1.index t (0 : Fin 2) * 1000 + 1 * (j 0).val; rw [e0, e2]
    | ⟨1, _⟩ => show win0_0.index t (1 : Fin 2) * 512 + 1 * (j 1).val = win0_1.index t (1 : Fin 2) * 512 + 1 * (j 1).val; rw [e1, e3]
  rw [h]

/-- An index of window 1's array is in point `t`'s block iff each coordinate is in the block's range. -/
theorem mem_blk1 (t : Fin cfg0.N) (i : S10000x512.Idx) :
    i ∈ ((cfg0.win 1).blk t).view.set ↔ ∀ a : Fin 2, win0_1.index t a * S1000x512.size a ≤ (i a).val ∧ (i a).val < win0_1.index t a * S1000x512.size a + S1000x512.size a := by
  show i ∈ ((View.whole main_v0_0).slice (win0_1.rect t)).set ↔ _
  rw [View.set_slice_whole, Rect.mem_set_unit]
  exact Iff.rfl

/-- Every index of window 1's array is in the block of the point that is its row divided by 1000. -/
theorem cover1 (i : S10000x512.Idx) :
    ∃ t : Fin cfg0.N, (cfg0.win 1).flush t = true ∧ i ∈ ((cfg0.win 1).blk t).view.set := by
  have hi0 : (i 0).val < 10000 := (i 0).isLt
  have hi1 : (i 1).val < 512 := (i 1).isLt
  have hN : cfg0.N = 10 := N_0
  let t : Fin cfg0.N := ⟨(i 0).val / 1000, by rw [hN]; omega⟩
  obtain ⟨e0, e1, e2, e3, e4, e5⟩ := blockIdx0 t
  have ht : t.val = (i 0).val / 1000 := rfl
  refine ⟨t, flush0_1 t, ?_⟩
  rw [mem_blk1]
  intro a
  match a with
  | ⟨0, _⟩ => show win0_1.index t (0 : Fin 2) * 1000 ≤ (i 0).val ∧ (i 0).val < win0_1.index t (0 : Fin 2) * 1000 + 1000; omega
  | ⟨1, _⟩ => show win0_1.index t (1 : Fin 2) * 512 ≤ (i 1).val ∧ (i 1).val < win0_1.index t (1 : Fin 2) * 512 + 512; omega

/-- Window 1's array when the region ends: the centre table. -/
theorem final1 (c : Dev nD) : (dat0 (F := Ideal) V c).arrAt 1 cfg0.N = centres V c :=
  (dat0 (F := Ideal) V c).arrAt_eq_of_cover 1 (centres V c) (fun t _ => flushed1_eq V c t) cover1

/-! ## Output window 2: the squared norms -/

/-- What window 2's array ends holding: in each row, the sum over the 512 columns of the squares of that row
    of the centre table as the region finds it. -/
abbrev sqNorms (c : Dev nD) : S10000x1.Idx → EReal :=
  fun i => ∑ d : Fin 512, centres V c (ix2 (i 0 : Fin 10000) d) * centres V c (ix2 (i 0 : Fin 10000) d)

/-- The second payload read at row `p` of its one column: the loaded block squared entrywise, summed along the
    row, the vector of row sums viewed as a column. -/
theorem pay2_apply (x0 : Vec Ideal S1000x512 .f32) (p : Fin 1000) (z : Fin 1) :
    k0_pay2 x0 (ix2 p z) = ∑ d : Fin 512, x0 (ix2 p d) * x0 (ix2 p d) := by
  unfold k0_pay2
  -- the column reads the vector of row sums at p; the row sum of the squared block is the sum of the squares
  exact (Cert.LibVecRows.shapeCast_col_apply (a := 1000) _ shapeCasts_S1000_S1000x1 p z).trans
    (Cert.LibVecRows.multiReduction_rows_apply (a := 1000) (b := 512) (φ := .f32) (mulf x0 x0) 0x00000000#32
      reduces_S1000x512_S1000 (.inl rfl) rfl p)

/-- The input window's block at point `t`, read at row `p` and column `d`: the centre table at row
    `1000 t + p`, column `d`. -/
theorem iblk0_apply (c : Dev nD) (t : Fin cfg0.N) (p : Fin 1000) (d : Fin 512) (k : Fin 10000)
    (hk : k.val = t.val * 1000 + p.val) :
    (iblk0 V c 0 t : Vec Ideal S1000x512 .f32) (ix2 p d) = centres V c (ix2 k d) := by
  obtain ⟨e0, e1, -⟩ := blockIdx0 t
  unfold iblk0
  rw [View.read_apply]
  show V c main_arg2 (((cfg0.win 0).blk t).view.emb (ix2 p d)) = V c main_arg2 (ix2 k d)
  congr 1
  funext a
  apply Fin.ext
  match a with
  | ⟨0, _⟩ => show win0_0.index t (0 : Fin 2) * 1000 + 1 * p.val = k.val; rw [e0, hk, Nat.one_mul]
  | ⟨1, _⟩ => show win0_0.index t (1 : Fin 2) * 512 + 1 * d.val = d.val; rw [e1]; omega

/-- What point `t` writes back to window 2's array is block `t` of the column of squared norms. -/
theorem flushed2_eq (c : Dev nD) (t : Fin cfg0.N) :
    (dat0 (F := Ideal) V c).flushed 2 t = ((cfg0.win 2).blk t).view.read (Elt Ideal) (sqNorms V c) := by
  show (cfg0.win 2).cut (grid0.coords t) ((dat0 V c).after 2 t) = _
  rw [after0_2]
  unfold out0_2
  rw [View.canon_unit_zero zeroOff]
  simp only [View.ld_unit_zero (S := S1000x512) zeroOff]
  obtain ⟨e0, e1, e2, e3, e4, e5⟩ := blockIdx0 t
  funext j
  obtain ⟨p, z, rfl⟩ : ∃ (p : Fin 1000) (z : Fin 1), j = ix2 p z := ⟨j 0, j 1, eq_ix2 j⟩
  have hp : p.val < 1000 := p.isLt
  have ht : t.val < 10 := Nat.lt_of_lt_of_eq t.isLt N_0
  -- the row of the array that row p of point t's block is
  let k : Fin 10000 := ⟨t.val * 1000 + p.val, by omega⟩
  have hrow : (((cfg0.win 2).blk t).view.emb (ix2 p z)) 0 = k := by
    apply Fin.ext
    show win0_2.index t (0 : Fin 2) * 1000 + 1 * p.val = t.val * 1000 + p.val
    rw [e4, Nat.one_mul]
  refine (pay2_apply (iblk0 V c 0 t) p z).trans ?_
  show _ = ∑ d : Fin 512, centres V c (ix2 ((((cfg0.win 2).blk t).view.emb (ix2 p z)) 0 : Fin 10000) d)
    * centres V c (ix2 ((((cfg0.win 2).blk t).view.emb (ix2 p z)) 0 : Fin 10000) d)
  rw [hrow]
  exact Finset.sum_congr rfl fun d _ => by rw [iblk0_apply V c t p d k rfl]

/-- An index of window 2's array is in point `t`'s block iff each coordinate is in the block's range. -/
theorem mem_blk2 (t : Fin cfg0.N) (i : S10000x1.Idx) :
    i ∈ ((cfg0.win 2).blk t).view.set ↔ ∀ a : Fin 2, win0_2.index t a * S1000x1.size a ≤ (i a).val ∧ (i a).val < win0_2.index t a * S1000x1.size a + S1000x1.size a := by
  show i ∈ ((View.whole main_v0_1).slice (win0_2.rect t)).set ↔ _
  rw [View.set_slice_whole, Rect.mem_set_unit]
  exact Iff.rfl

/-- Every index of window 2's array is in the block of the point that is its row divided by 1000. -/
theorem cover2 (i : S10000x1.Idx) :
    ∃ t : Fin cfg0.N, (cfg0.win 2).flush t = true ∧ i ∈ ((cfg0.win 2).blk t).view.set := by
  have hi0 : (i 0).val < 10000 := (i 0).isLt
  have hi1 : (i 1).val < 1 := (i 1).isLt
  have hN : cfg0.N = 10 := N_0
  let t : Fin cfg0.N := ⟨(i 0).val / 1000, by rw [hN]; omega⟩
  obtain ⟨e0, e1, e2, e3, e4, e5⟩ := blockIdx0 t
  have ht : t.val = (i 0).val / 1000 := rfl
  refine ⟨t, flush0_2 t, ?_⟩
  rw [mem_blk2]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 1 ≤ (i 1).val ∧ (i 1).val < win0_2.index t (1 : Fin 2) * 1 + 1; omega

/-- Window 2's array when the region ends: the column of squared norms. -/
theorem final2 (c : Dev nD) : (dat0 (F := Ideal) V c).arrAt 2 cfg0.N = sqNorms V c :=
  (dat0 (F := Ideal) V c).arrAt_eq_of_cover 2 (sqNorms V c) (fun t _ => flushed2_eq V c t) cover2

end Region0

open Region0

/-! ## The two arrays when the region ends -/

/-- The copied centres: output window 1's array ends holding the centre table itself. -/
theorem arr0_1 (c : Dev nD) (w : Fin 10000 → Fin 512 → EReal)
    (hw : ∀ k d, V c main_arg2 (ix2 k d) = w k d) (k : Fin 10000) (d : Fin 512) :
    (dat0 (F := Ideal) V c).arrAt 1 cfg0.N (ix2 k d) = w k d := by
  rw [final1]
  exact hw k d

/-- The squared norms: output window 2's array, a 10000 x 1 column, ends holding each centre's squared norm. -/
theorem arr0_2 (c : Dev nD) (w : Fin 10000 → Fin 512 → EReal)
    (hw : ∀ k d, V c main_arg2 (ix2 k d) = w k d) (k : Fin 10000) :
    (dat0 (F := Ideal) V c).arrAt 2 cfg0.N (ix2 k (0 : Fin 1)) = Spec.csq w k := by
  rw [final2]
  show ∑ d : Fin 512, centres V c (ix2 k d) * centres V c (ix2 k d) = Spec.csq w k
  unfold Spec.csq
  exact Finset.sum_congr rfl fun d _ => by rw [show centres V c (ix2 k d) = w k d from hw k d]

end Cert.KernelIdeal.KV

end
-- ==== Proof.LibVecRowMax.lean ====
/-
  The maximum of each row of a block of rows, as a kernel's vector reduction computes it, read at an index, at
  the extended reals. Stated for any extents.
-/
import Idealize.ShloMosaic.PureOps.Ideal
import Idealize.ShloMosaic.PureOps.Ideal.Laws
import Idealize.ShloMosaic.Lib.ValueIdx

noncomputable section

namespace Cert.LibVecRowMax

open Idealize.ShloMosaic Idealize.ShloMosaic.ValueIdx

/-- The maximum over the second axis of an `a × b` block, read at row `p`: the fold of `max`, from the value the
    accumulator's pattern denotes, over the row's `b` entries. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  -- a reduction over one axis folds over that axis's coordinates the source at the row index with the coordinate
  -- inserted; on the second axis of a rank-2 block the inserted index is (p, k)
  refine (Ideal.multiReduction_maximumf_single src acc h hφ hacc (ix1 p)).trans ?_
  show (Finset.univ : Finset (Fin b)).fold max (Ideal.ofBits φ acc) (src ∘ h.lift (ix1 p)) = _
  refine congrArg (fun f => Finset.fold max (Ideal.ofBits φ acc) f (Finset.univ : Finset (Fin b))) (funext fun k => congrArg src ?_)
  funext c
  match c with
  | ⟨0, _⟩ => exact Fin.ext rfl
  | ⟨1, _⟩ => exact Fin.ext rfl

end Cert.LibVecRowMax

end
-- ==== Proof.KRegion1.lean ====
/-
  The second kernel region (32 blocks of 128 samples): what its two output arrays hold when the region ends,
  index by index — each sample's squared norm, and each sample's row log-sum-exp of the logits
  2 * <x_n, w_c> - |w_c|^2 over the 10000 classes.
-/
import proofs.«416865_j89129161327199_2_alg».proof.Proof.Gen.KernelIdeal.Frame
import proofs.«416865_j89129161327199_2_alg».proof.Proof.Spec
import proofs.«416865_j89129161327199_2_alg».proof.Proof.LibVecRows
import proofs.«416865_j89129161327199_2_alg».proof.Proof.LibVecRowMax
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! ## Layout readings the block arithmetic needs -/

/-- An `a × 1` column viewed as a vector of length `a` reads the column's entry. -/
theorem shapeCast_uncol_apply {a : ℕ} {α : Type} (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) :=
  -- both indices have the row-major position p: p * 1 + 0 on the column side
  shapeCast_apply v h _ _ (by
    rw [Shape.rowMajor_val_one, Shape.rowMajor_val_two]
    show p.val * 1 + 0 = p.val
    rw [Nat.mul_one, Nat.add_zero])

/-- A `1 × b` row broadcast to `a × b` reads the row's entry of the column. -/
theorem broadcastTo_row_apply {a b : ℕ} {α : Type} (v : (⟨2, ![1, b]⟩ : Shape).Idx → α)
    (h : (⟨2, ![1, b]⟩ : Shape).Broadcasts ⟨2, ![a, b]⟩) (p : Fin a) (k : Fin b) :
    broadcastTo ⟨2, ![a, b]⟩ v h (ix2 p k) = v (ix2 (0 : Fin 1) k) := by
  -- the unit axis reads 0; the column axis keeps its coordinate (which is 0 anyway when the extent is 1)
  refine broadcastTo_apply v h (ix2 p k) (ix2 (0 : Fin 1) k) fun ax => ?_
  match ax with
  | ⟨0, _⟩ => rfl
  | ⟨1, _⟩ =>
    show k.val = if b = 1 then 0 else k.val
    split
    · have := k.isLt; omega
    · rfl

/-! ## The product of a block of samples with the transposed centre table, at an index -/

theorem lhs_dot_0 (j : S128x10000.Idx) (k : dot_S128x512_S10000x512_S128x10000_1_1_0_0_n_n.contr.Idx) :
    (dot_S128x512_S10000x512_S128x10000_1_1_0_0_n_n.lhsIdx j k 0 : ℕ) = j 0 := by
  simp [DotDims.lhsIdx, dot_S128x512_S10000x512_S128x10000_1_1_0_0_n_n]; rfl
theorem lhs_dot_1 (j : S128x10000.Idx) (k : dot_S128x512_S10000x512_S128x10000_1_1_0_0_n_n.contr.Idx) :
    (dot_S128x512_S10000x512_S128x10000_1_1_0_0_n_n.lhsIdx j k 1 : ℕ) = k ⟨0, by decide⟩ := by
  simp [DotDims.lhsIdx, dot_S128x512_S10000x512_S128x10000_1_1_0_0_n_n]; rfl
theorem rhs_dot_0 (j : S128x10000.Idx) (k : dot_S128x512_S10000x512_S128x10000_1_1_0_0_n_n.contr.Idx) :
    (dot_S128x512_S10000x512_S128x10000_1_1_0_0_n_n.rhsIdx j k 0 : ℕ) = j 1 := by
  simp [DotDims.rhsIdx, dot_S128x512_S10000x512_S128x10000_1_1_0_0_n_n]; rfl
theorem rhs_dot_1 (j : S128x10000.Idx) (k : dot_S128x512_S10000x512_S128x10000_1_1_0_0_n_n.contr.Idx) :
    (dot_S128x512_S10000x512_S128x10000_1_1_0_0_n_n.rhsIdx j k 1 : ℕ) = k ⟨0, by decide⟩ := by
  simp [DotDims.rhsIdx, dot_S128x512_S10000x512_S128x10000_1_1_0_0_n_n]; rfl

/-- Entry (p, k) of the product onto the zero block: the inner product of row p of the left operand with row k of
    the right one (both operands are contracted along their second axis). -/
theorem matmul_rows_apply (l : FVec Ideal S128x512 .bf16) (r : FVec Ideal S10000x512 .bf16) (p : Fin 128) (k : Fin 10000) :
    matmul dot_S128x512_S10000x512_S128x10000_1_1_0_0_n_n none l r (constant (F := Ideal) S128x10000 .f32 0x00000000#32) (ix2 p k)
      = ∑ d : Fin 512, l (ix2 p d) * r (ix2 k d) := by
  refine (Ideal.matmul_constant_zero_apply dot_S128x512_S10000x512_S128x10000_1_1_0_0_n_n none l r (ix2 p k)).trans ?_
  rw [← Equiv.sum_comp (contrEquiv1 dot_S128x512_S10000x512_S128x10000_1_1_0_0_n_n 512 rfl rfl).symm]
  refine Finset.sum_congr rfl fun d _ => ?_
  have hd := contrEquiv1_symm_val dot_S128x512_S10000x512_S128x10000_1_1_0_0_n_n 512 rfl rfl d
  have hl : dot_S128x512_S10000x512_S128x10000_1_1_0_0_n_n.lhsIdx (ix2 p k)
      ((contrEquiv1 dot_S128x512_S10000x512_S128x10000_1_1_0_0_n_n 512 rfl rfl).symm d) = ix2 p d := by
    funext ax; apply Fin.ext
    match ax with
    | ⟨0, _⟩ => exact lhs_dot_0 _ _
    | ⟨1, _⟩ => exact (lhs_dot_1 _ _).trans hd
  have hr : dot_S128x512_S10000x512_S128x10000_1_1_0_0_n_n.rhsIdx (ix2 p k)
      ((contrEquiv1 dot_S128x512_S10000x512_S128x10000_1_1_0_0_n_n 512 rfl rfl).symm d) = ix2 k d := by
    funext ax; apply Fin.ext
    match ax with
    | ⟨0, _⟩ => exact rhs_dot_0 _ _
    | ⟨1, _⟩ => exact (rhs_dot_1 _ _).trans hd
  rw [hl, hr]

/-! ## The block arithmetic, row by row -/

/-- Row p of the squared-norm block: the sum of the squares of row p of the block of samples. -/
theorem pay1_row (x0 : Vec Ideal S128x512 .f32) (p : Fin 128) :
    k1_pay1 x0 (ix1 p) = ∑ d : Fin 512, x0 (ix2 p d) * x0 (ix2 p d) := by
  unfold k1_pay1
  exact LibVecRows.multiReduction_rows_apply (mulf x0 x0) _ _ _ _ p

/-- The block of logits: twice the product of the samples (narrowed) with the transposed centre table, minus the
    row of the centres' squared norms repeated down the rows. -/
def logitsBlk (x0 : Vec Ideal S128x512 .f32) (x1 : Vec Ideal S10000x512 .bf16) (x2 : Vec Ideal S1x10000 .f32) :
    FVec Ideal S128x10000 .f32 :=
  subf
    (mulf (broadcast S128x10000 (Scalar.ofBits .f32 0x40000000#32))
      (matmul dot_S128x512_S10000x512_S128x10000_1_1_0_0_n_n none (truncf .bf16 x0 bitsLt_bf16_f32 : FVec Ideal S128x512 .bf16)
        (shapeCast S10000x512 x1 shapeCasts_S10000x512_S10000x512 : FVec Ideal S10000x512 .bf16) (constant S128x10000 .f32 0x00000000#32)))
    (broadcastTo S128x10000 (shapeCast S1x10000 x2 shapeCasts_S1x10000_S1x10000 : FVec Ideal S1x10000 .f32) broadcasts_S1x10000_S128x10000)

/-- Entry (p, k) of the block of logits. -/
theorem logitsBlk_apply (x0 : Vec Ideal S128x512 .f32) (x1 : Vec Ideal S10000x512 .bf16) (x2 : Vec Ideal S1x10000 .f32)
    (p : Fin 128) (k : Fin 10000) :
    logitsBlk x0 x1 x2 (ix2 p k)
      = Spec.two * (∑ d : Fin 512, x0 (ix2 p d) * x1 (ix2 k d)) - x2 (ix2 (0 : Fin 1) k) := by
  unfold logitsBlk
  rw [subf_apply, mulf_apply, broadcast_apply, matmul_rows_apply, broadcastTo_row_apply, shapeCast_self, shapeCast_self]
  rfl

/-- The row log-sum-exp of a block of logits as the kernel computes it: the row maximum kept as a column, the
    exponentials of the differences summed along the rows, the logarithm added back onto the maximum. -/
def lseBlk (s : FVec Ideal S128x10000 .f32) : FVec Ideal S128 .f32 :=
  shapeCast S128
    (addf
      (shapeCast S128x1 (multiReduction .maximumf [1] S128 s 0xFF800000#32 reduces_S128x10000_S128 (.inl rfl) rfl) shapeCasts_S128_S128x1)
      (log (shapeCast S128x1
        (multiReduction .add [1] S128
          (exp (subf s (broadcastTo S128x10000
            (shapeCast S128x1 (multiReduction .maximumf [1] S128 s 0xFF800000#32 reduces_S128x10000_S128 (.inl rfl) rfl) shapeCasts_S128_S128x1)
            broadcasts_S128x1_S128x10000)))
          0x00000000#32 reduces_S128x10000_S128 (.inl rfl) rfl)
        shapeCasts_S128_S128x1)))
    shapeCasts_S128x1_S128

/-- The kernel's second payload is the row log-sum-exp of the block of logits. -/
theorem pay2_eq (x0 : Vec Ideal S128x512 .f32) (x1 : Vec Ideal S10000x512 .bf16) (x2 : Vec Ideal S1x10000 .f32) :
    k1_pay2 x0 x1 x2 = lseBlk (logitsBlk x0 x1 x2) := rfl

/-- The row maximum kept as a column, at row p. -/
theorem rowmax_col_apply (s : FVec Ideal S128x10000 .f32) (p : Fin 128) (z : Fin 1) :
    shapeCast S128x1 (multiReduction (F := Ideal) .maximumf [1] S128 s 0xFF800000#32 reduces_S128x10000_S128 (.inl rfl) rfl)
        shapeCasts_S128_S128x1 (ix2 p z)
      = (Finset.univ : Finset (Fin 10000)).fold max Spec.negInf (fun k => s (ix2 p k)) := by
  rw [LibVecRows.shapeCast_col_apply]
  exact LibVecRowMax.multiReduction_max_rows_apply s _ _ _ _ p

/-- Row p of the row log-sum-exp of a block. -/
theorem lseBlk_apply (s : FVec Ideal S128x10000 .f32) (p : Fin 128) :
    lseBlk s (ix1 p)
      = (Finset.univ : Finset (Fin 10000)).fold max Spec.negInf (fun k => s (ix2 p k))
        + Ideal.log (∑ k : Fin 10000, Ideal.exp (s (ix2 p k)
            - (Finset.univ : Finset (Fin 10000)).fold max Spec.negInf (fun k => s (ix2 p k)))) := by
  unfold lseBlk
  rw [shapeCast_uncol_apply, addf_apply, rowmax_col_apply]
  refine congrArg (_ + ·) ?_
  show Ideal.log (shapeCast S128x1 _ shapeCasts_S128_S128x1 (ix2 p (0 : Fin 1))) = _
  rw [LibVecRows.shapeCast_col_apply]
  refine congrArg Ideal.log ((LibVecRows.multiReduction_rows_apply _ _ _ _ _ p).trans (Finset.sum_congr rfl fun k _ => ?_))
  show Ideal.exp (s (ix2 p k) - broadcastTo S128x10000 _ broadcasts_S128x1_S128x10000 (ix2 p k)) = _
  rw [LibVecRows.broadcastTo_col_apply, rowmax_col_apply]

/-- Row p of the kernel's second payload, over the rows of its three operands. -/
theorem pay2_row (x0 : Vec Ideal S128x512 .f32) (x1 : Vec Ideal S10000x512 .bf16) (x2 : Vec Ideal S1x10000 .f32) (p : Fin 128) :
    k1_pay2 x0 x1 x2 (ix1 p)
      = (Finset.univ : Finset (Fin 10000)).fold max Spec.negInf
            (fun k => Spec.two * (∑ d : Fin 512, x0 (ix2 p d) * x1 (ix2 k d)) - x2 (ix2 (0 : Fin 1) k))
        + Ideal.log (∑ k : Fin 10000, Ideal.exp ((Spec.two * (∑ d : Fin 512, x0 (ix2 p d) * x1 (ix2 k d)) - x2 (ix2 (0 : Fin 1) k))
            - (Finset.univ : Finset (Fin 10000)).fold max Spec.negInf
                (fun k => Spec.two * (∑ d : Fin 512, x0 (ix2 p d) * x1 (ix2 k d)) - x2 (ix2 (0 : Fin 1) k)))) := by
  rw [pay2_eq, lseBlk_apply]
  simp only [logitsBlk_apply]

/-! ## The row log-sum-exp as one function of a sample row, the centre table and the subtracted row -/

/-- The log-sum-exp over the 10000 classes of the logits `2 * <a, b k> - q k` of one sample row `a`, stabilised by
    their maximum. -/
def lseRow (a : Fin 512 → EReal) (b : Fin 10000 → Fin 512 → EReal) (q : Fin 10000 → EReal) : EReal :=
  (Finset.univ : Finset (Fin 10000)).fold max Spec.negInf (fun k => Spec.two * (∑ d : Fin 512, a d * b k d) - q k)
    + Ideal.log (∑ k : Fin 10000, Ideal.exp ((Spec.two * (∑ d : Fin 512, a d * b k d) - q k)
        - (Finset.univ : Finset (Fin 10000)).fold max Spec.negInf (fun k => Spec.two * (∑ d : Fin 512, a d * b k d) - q k)))

theorem lseRow_congr {a a' : Fin 512 → EReal} {b b' : Fin 10000 → Fin 512 → EReal} {q q' : Fin 10000 → EReal}
    (ha : ∀ d, a d = a' d) (hb : ∀ k d, b k d = b' k d) (hq : ∀ k, q k = q' k) : lseRow a b q = lseRow a' b' q' := by
  obtain rfl : a = a' := funext ha
  obtain rfl : b = b' := funext fun k => funext (hb k)
  obtain rfl : q = q' := funext hq
  rfl

/-- The sum of the squares of a row. -/
def sqRow (a : Fin 512 → EReal) : EReal := ∑ d : Fin 512, a d * a d

/-- The specification's row log-sum-exp is that function of the sample's row, the centres and their squared norms. -/
theorem lseK_eq (x : Fin 4096 → Fin 512 → EReal) (w : Fin 10000 → Fin 512 → EReal) (n : Fin 4096) :
    Spec.lseK x w n = lseRow (x n) w (Spec.csq w) := rfl

/-- Row p of the kernel's second payload is that function of row p of the block of samples, the rows of the table
    and the row of squared norms. -/
theorem pay2_row_lse (x0 : Vec Ideal S128x512 .f32) (x1 : Vec Ideal S10000x512 .bf16) (x2 : Vec Ideal S1x10000 .f32) (p : Fin 128) :
    k1_pay2 x0 x1 x2 (ix1 p) = lseRow (fun d => x0 (ix2 p d)) (fun k d => x1 (ix2 k d)) (fun k => x2 (ix2 (0 : Fin 1) k)) :=
  pay2_row x0 x1 x2 p

/-! ## From the blocks to the arrays -/

-- the region's entry contents, a parameter as in the frame
variable (V : (c : Dev nD) → (b : Ref sig .tc) → Buf (Elt Ideal) ((c : Thread nD τ).loc b))

theorem zeros1 : (![0] : Fin 1 → Nat) = fun _ => 0 := funext fun a => by fin_cases a; rfl
theorem zeros2 : (![0, 0] : Fin 2 → Nat) = fun _ => 0 := funext fun a => by fin_cases a <;> rfl

/-- The printed index maps, decided over the grid: the sample block and the two output blocks move with the point,
    the centre table and the row of squared norms stay at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = t.val ∧ win1_4.index t (0 : Fin 1) = t.val :=
  (by decide +kernel : ∀ t : Fin grid1.N, _)

/-- Entry (p, d) of the block of samples at point t is entry (128 t + p, d) of the sample array. -/
theorem samples_blk_apply (c : Dev nD) (t : Fin cfg1.N) (p : Fin 128) (d : Fin 512) (n : Fin 4096)
    (hn : n.val = t.val * 128 + p.val) :
    (iblk1 (F := Ideal) V c 0 t : Vec Ideal S128x512 .f32) (ix2 p d) = V c main_arg0 (ix2 n d) := by
  obtain ⟨e0, e1, -⟩ := index_facts t
  unfold iblk1
  rw [View.read_apply]
  show V c main_arg0 _ = V c main_arg0 _
  congr 1
  funext a; apply Fin.ext
  match a with
  | ⟨0, _⟩ => show win1_0.index t (0 : Fin 2) * 128 + 1 * p.val = n.val; rw [e0, hn]; omega
  | ⟨1, _⟩ => show win1_0.index t (1 : Fin 2) * 512 + 1 * d.val = d.val; rw [e1]; omega

/-- The block of the centre table at every point is the whole table. -/
theorem centres_blk_apply (c : Dev nD) (t : Fin cfg1.N) (k : Fin 10000) (d : Fin 512) :
    (iblk1 (F := Ideal) V c 1 t : Vec Ideal S10000x512 .bf16) (ix2 k d) = V c main_v0_0 (ix2 k d) := by
  obtain ⟨-, -, e2, e3, -⟩ := index_facts t
  unfold iblk1
  rw [View.read_apply]
  show V c main_v0_0 _ = V c main_v0_0 _
  congr 1
  funext a; apply Fin.ext
  match a with
  | ⟨0, _⟩ => show win1_1.index t (0 : Fin 2) * 10000 + 1 * k.val = k.val; rw [e2]; omega
  | ⟨1, _⟩ => show win1_1.index t (1 : Fin 2) * 512 + 1 * d.val = d.val; rw [e3]; omega

/-- The block of the row of squared norms at every point is the whole row. -/
theorem norms_blk_apply (c : Dev nD) (t : Fin cfg1.N) (k : Fin 10000) :
    (iblk1 (F := Ideal) V c 2 t : Vec Ideal S1x10000 .f32) (ix2 (0 : Fin 1) k) = V c main_v1 (ix2 (0 : Fin 1) k) := by
  obtain ⟨-, -, -, -, e4, e5, -⟩ := index_facts t
  unfold iblk1
  rw [View.read_apply]
  show V c main_v1 _ = V c main_v1 _
  congr 1
  funext a; apply Fin.ext
  match a with
  | ⟨0, _⟩ => show win1_2.index t (0 : Fin 2) * 1 + 1 * 0 = 0; rw [e4]
  | ⟨1, _⟩ => show win1_2.index t (1 : Fin 2) * 10000 + 1 * k.val = k.val; rw [e5]; omega

/-- The samples' squared norms over the sample array as the region finds it. -/
def sqArr (c : Dev nD) : S4096.Idx → EReal :=
  fun i => sqRow fun d => V c main_arg0 (ix2 (idxEquiv1 i) d)

/-- The row log-sum-exp over the three input arrays as the region finds them. -/
def lseArr (c : Dev nD) : S4096.Idx → EReal :=
  fun i => lseRow (fun d => V c main_arg0 (ix2 (idxEquiv1 i) d)) (fun k d => V c main_v0_0 (ix2 k d))
    (fun k => V c main_v1 (ix2 (0 : Fin 1) k))

/-- What point t writes back through window 4 is block t of the squared norms. -/
theorem flushed_sq (c : Dev nD) (t : Fin cfg1.N) :
    (dat1 (F := Ideal) V c).flushed 4 t = ((cfg1.win 4).blk t).view.read (Elt Ideal) (sqArr V c) := by
  show (cfg1.win 4).cut (grid1.coords t) ((dat1 (F := Ideal) V c).after 4 t) = _
  rw [after1_4]
  unfold out1_4
  rw [View.canon_unit_zero zeros1]
  simp only [View.ld_unit_zero (S := S128x512) zeros2]
  obtain ⟨-, -, -, -, -, -, -, e7⟩ := index_facts t
  refine funext fun (j : S128.Idx) => ?_
  obtain ⟨p, rfl⟩ : ∃ p : Fin 128, j = ix1 p := ⟨j 0, eq_ix1 j⟩
  show k1_pay1 (iblk1 (F := Ideal) V c 0 t) (ix1 p) = sqArr V c (((cfg1.win 4).blk t).view.emb (ix1 p))
  refine (pay1_row _ p).trans ?_
  show sqRow (fun d => (iblk1 (F := Ideal) V c 0 t : Vec Ideal S128x512 .f32) (ix2 p d)) = _
  have hn : (idxEquiv1 (((cfg1.win 4).blk t).view.emb (ix1 p)) : Fin 4096).val = t.val * 128 + p.val := by
    show win1_4.index t (0 : Fin 1) * 128 + 1 * p.val = _
    rw [e7]; omega
  unfold sqArr
  exact congrArg sqRow (funext fun d => samples_blk_apply V c t p d _ hn)

/-- What point t writes back through window 3 is block t of the row log-sum-exp. -/
theorem flushed_lse (c : Dev nD) (t : Fin cfg1.N) :
    (dat1 (F := Ideal) V c).flushed 3 t = ((cfg1.win 3).blk t).view.read (Elt Ideal) (lseArr V c) := by
  show (cfg1.win 3).cut (grid1.coords t) ((dat1 (F := Ideal) V c).after 3 t) = _
  rw [after1_3]
  unfold out1_3
  rw [View.canon_unit_zero zeros1]
  simp only [View.ld_unit_zero (S := S128x512) zeros2, View.ld_unit_zero (S := S10000x512) zeros2,
    View.ld_unit_zero (S := S1x10000) zeros2]
  obtain ⟨-, -, -, -, -, -, e6, -⟩ := index_facts t
  refine funext fun (j : S128.Idx) => ?_
  obtain ⟨p, rfl⟩ : ∃ p : Fin 128, j = ix1 p := ⟨j 0, eq_ix1 j⟩
  show k1_pay2 (iblk1 (F := Ideal) V c 0 t) (iblk1 (F := Ideal) V c 1 t) (iblk1 (F := Ideal) V c 2 t) (ix1 p)
    = lseArr V c (((cfg1.win 3).blk t).view.emb (ix1 p))
  refine (pay2_row_lse _ _ _ p).trans ?_
  have hn : (idxEquiv1 (((cfg1.win 3).blk t).view.emb (ix1 p)) : Fin 4096).val = t.val * 128 + p.val := by
    show win1_3.index t (0 : Fin 1) * 128 + 1 * p.val = _
    rw [e6]; omega
  unfold lseArr
  exact lseRow_congr (fun d => samples_blk_apply V c t p d _ hn) (fun k d => centres_blk_apply V c t k d)
    (fun k => norms_blk_apply V c t k)

/-- An index of an output array is in point t's block iff it is in rows 128 t … 128 t + 127. -/
theorem mem_blk_sq (t : Fin cfg1.N) (i : S4096.Idx) :
    i ∈ ((cfg1.win 4).blk t).view.set ↔ ∀ a : Fin 1, win1_4.index t a * S128.size a ≤ (i a).val ∧ (i a).val < win1_4.index t a * S128.size a + S128.size a := by
  show i ∈ ((View.whole main_v2_1).slice (win1_4.rect t)).set ↔ _
  rw [View.set_slice_whole, Rect.mem_set_unit]
  exact Iff.rfl

theorem mem_blk_lse (t : Fin cfg1.N) (i : S4096.Idx) :
    i ∈ ((cfg1.win 3).blk t).view.set ↔ ∀ a : Fin 1, win1_3.index t a * S128.size a ≤ (i a).val ∧ (i a).val < win1_3.index t a * S128.size a + S128.size a := by
  show i ∈ ((View.whole main_v2_0).slice (win1_3.rect t)).set ↔ _
  rw [View.set_slice_whole, Rect.mem_set_unit]
  exact Iff.rfl

/-- Row r is in the block of point r / 128. -/
theorem covered_sq (i : S4096.Idx) :
    ∃ t : Fin cfg1.N, (cfg1.win 4).flush t = true ∧ i ∈ ((cfg1.win 4).blk t).view.set := by
  have hi : (i 0).val < 4096 := (i 0).isLt
  have hN : cfg1.N = 32 := N_1
  have ht : (i 0).val / 128 < cfg1.N := by rw [hN]; omega
  obtain ⟨-, -, -, -, -, -, -, e7⟩ := index_facts ⟨(i 0).val / 128, ht⟩
  refine ⟨⟨(i 0).val / 128, ht⟩, flush1_4 _, ?_⟩
  rw [mem_blk_sq]
  intro a
  match a with
  | ⟨0, _⟩ =>
    show win1_4.index ⟨(i 0).val / 128, ht⟩ (0 : Fin 1) * 128 ≤ (i 0).val
      ∧ (i 0).val < win1_4.index ⟨(i 0).val / 128, ht⟩ (0 : Fin 1) * 128 + 128
    rw [e7]
    show (i 0).val / 128 * 128 ≤ (i 0).val ∧ (i 0).val < (i 0).val / 128 * 128 + 128
    omega

theorem covered_lse (i : S4096.Idx) :
    ∃ t : Fin cfg1.N, (cfg1.win 3).flush t = true ∧ i ∈ ((cfg1.win 3).blk t).view.set := by
  have hi : (i 0).val < 4096 := (i 0).isLt
  have hN : cfg1.N = 32 := N_1
  have ht : (i 0).val / 128 < cfg1.N := by rw [hN]; omega
  obtain ⟨-, -, -, -, -, -, e6, -⟩ := index_facts ⟨(i 0).val / 128, ht⟩
  refine ⟨⟨(i 0).val / 128, ht⟩, flush1_3 _, ?_⟩
  rw [mem_blk_lse]
  intro a
  match a with
  | ⟨0, _⟩ =>
    show win1_3.index ⟨(i 0).val / 128, ht⟩ (0 : Fin 1) * 128 ≤ (i 0).val
      ∧ (i 0).val < win1_3.index ⟨(i 0).val / 128, ht⟩ (0 : Fin 1) * 128 + 128
    rw [e6]
    show (i 0).val / 128 * 128 ≤ (i 0).val ∧ (i 0).val < (i 0).val / 128 * 128 + 128
    omega

/-- Output window 4's array when the region ends: the squared norms. -/
theorem arr_sq (c : Dev nD) : (dat1 (F := Ideal) V c).arrAt 4 cfg1.N = sqArr V c :=
  (dat1 (F := Ideal) V c).arrAt_eq_of_cover 4 (sqArr V c) (fun t _ => flushed_sq V c t) covered_sq

/-- Output window 3's array when the region ends: the row log-sum-exp. -/
theorem arr_lse (c : Dev nD) : (dat1 (F := Ideal) V c).arrAt 3 cfg1.N = lseArr V c :=
  (dat1 (F := Ideal) V c).arrAt_eq_of_cover 3 (lseArr V c) (fun t _ => flushed_lse V c t) covered_lse

/-- The samples' squared norms: output window 4's array. -/
theorem arr1_4 (c : Dev nD) (x : Fin 4096 → Fin 512 → EReal)
    (hx : ∀ n d, V c main_arg0 (ix2 n d) = x n d) (n : Fin 4096) :
    (dat1 (F := Ideal) V c).arrAt 4 cfg1.N (ix1 n) = Spec.fsq x n := by
  rw [arr_sq]
  show sqRow (fun d => V c main_arg0 (ix2 n d)) = sqRow (x n)
  exact congrArg sqRow (funext (hx n))

/-- The row log-sum-exp: output window 3's array, when the second input array holds the centres and the third,
    a 1 x 10000 row, their squared norms. -/
theorem arr1_3 (c : Dev nD) (x : Fin 4096 → Fin 512 → EReal) (w : Fin 10000 → Fin 512 → EReal)
    (hx : ∀ n d, V c main_arg0 (ix2 n d) = x n d)
    (hw : ∀ k d, V c main_v0_0 (ix2 k d) = w k d)
    (hq : ∀ k, V c main_v1 (ix2 (0 : Fin 1) k) = Spec.csq w k) (n : Fin 4096) :
    (dat1 (F := Ideal) V c).arrAt 3 cfg1.N (ix1 n) = Spec.lseK x w n := by
  rw [arr_lse, lseK_eq]
  show lseRow (fun d => V c main_arg0 (ix2 n d)) (fun k d => V c main_v0_0 (ix2 k d))
    (fun k => V c main_v1 (ix2 (0 : Fin 1) k)) = _
  exact lseRow_congr (hx n) hw hq

end Cert.KernelIdeal.KV

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.KHostTake.lean ====
/-
  The kernel program's host stretch that takes each sample's centre row: from any contents holding the centre
  table w and the labels, the 23 operations leave in their result buffer, at (n, d), the entry w (row of label n, d)
  — provided every label's row index is in range (out of range the operations fill in a not-a-number instead).
-/
import proofs.«416865_j89129161327199_2_alg».proof.Proof.Gen.KernelIdeal.Launch
import proofs.«416865_j89129161327199_2_alg».proof.Proof.Spec
import proofs.«416865_j89129161327199_2_alg».proof.Proof.LibHostRows
import proofs.«416865_j89129161327199_2_alg».proof.Proof.LibGatherRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueIdxRank1
import Idealize.ShloMosaic.PureOps.Ideal.Laws

noncomputable section

namespace Cert.KernelIdeal.KV

open Idealize.ShloMosaic Idealize.ShloMosaic.TcCoe Idealize.SL.Sem Idealize.ShloMosaic.ValueIdx Idealize.ShloMosaic.StableHlo
open Cert.KernelIdeal Cert.KernelIdeal.Gen

-- the contents the stretch starts from
variable (V : Valuation τ sig (Elt Ideal))

namespace Take

/-! ## Small facts for any extents -/

/-- A vector of length a broadcast along the rows of an a × b array reads the row's entry. -/
theorem bcast_vec_rows_apply {a b : ℕ} {α : Type} (v : (⟨1, ![a]⟩ : Shape).Idx → α)
    (h : (⟨1, ![a]⟩ : Shape).BroadcastsInDim ⟨2, ![a, b]⟩ (![0] : Fin 1 → Fin 2)) (r : Fin a) (k : Fin b) :
    broadcastInDim ⟨2, ![a, b]⟩ ![0] h v (ix2 r k) = v (ix1 r) := by
  refine broadcastInDim_apply _ h v (ix2 r k) (ix1 r) fun ax => ?_
  match ax with
  | ⟨0, _⟩ =>
    show r.val = if a = 1 then 0 else r.val
    split
    · have := r.isLt; omega
    · rfl

/-- An and-fold of ones from one is one. -/
theorem fold_andi_ones {ι : Type} [DecidableEq ι] (S : Finset ι) (g : ι → BitVec 1) (hg : ∀ k ∈ S, g k = 1#1) :
    S.fold IntOp.andi 1#1 g = 1#1 := by
  induction S using Finset.induction_on with
  | empty => rfl
  | insert a S ha ih =>
    rw [Finset.fold_insert ha, hg a (Finset.mem_insert_self a S), ih fun k hk => hg k (Finset.mem_insert_of_mem hk)]
    rfl

/-- The and-reduce of an a × 1 column over its unit axis, from one: one at a row whose entry is one. -/
theorem reduce_andi_unit_one {a : ℕ} (x : IVec ⟨2, ![a, 1]⟩ 1) (init : (⟨0, ![]⟩ : Shape).Idx → BitVec 1)
    (h : (⟨2, ![a, 1]⟩ : Shape).ReducesTo [1] ⟨1, ![a]⟩) (hu : 0 < (⟨0, ![]⟩ : Shape).numel) (r : Fin a)
    (hi : init ix0 = 1#1) (hx : ∀ z : Fin 1, x (ix2 r z) = 1#1) :
    Host.reduce IntOp.andi x init h hu (ix1 r) = 1#1 := by
  have hR : (⟨2, ![a, 1]⟩ : Shape).Reduces [1] ⟨1, ![a]⟩ := ⟨h.1, Nat.one_pos, h.2⟩
  rw [Host.reduce_eq_fold_single IntOp.andi x init h hR hu, eq_ix0 (Shape.Idx.first hu), hi]
  refine fold_andi_ones _ _ fun k _ => ?_
  have e : hR.lift (ix1 r) k = ix2 r k := by
    funext c
    match c with
    | ⟨0, _⟩ => rfl
    | ⟨1, _⟩ => rfl
  show x (hR.lift (ix1 r) k) = 1#1
  rw [e]
  exact hx k

/-- The gathered rows at (r, j), the start index of row r named. -/
theorem gather_rows_at {α : Type} {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) (b : BitVec w)
    (hb : idx (ix2 r (0 : Fin 1)) = b) :
    Host.gather (LibGatherRows.rowTakeDims N D R wf) x idx (ix2 r j)
      = x (ix2 (⟨min b.toInt.toNat (N - 1), by omega⟩ : Fin N) j) := by
  subst hb
  exact LibGatherRows.gather_rows_apply hN wf x idx r j

/-! ## The stretch's values, operation by operation, as functions of the label vector and the centre table -/

/-- The label vector with numpy's rule for a negative index applied elementwise. -/
def normVec (l : (⟨S4096, .i32⟩ : BufTy).Contents (Elt Ideal)) : (⟨S4096, .i32⟩ : BufTy).Contents (Elt Ideal) :=
  select (cmpi .slt l (broadcastInDim S4096 ![] bcast_S_S4096 (constantI S_ 32 0#32)))
    (addi l (broadcastInDim S4096 ![] bcast_S_S4096 (constantI S_ 32 10000#32))) l

/-- The normalized indices as a column of start indices. -/
def idxCol (l : (⟨S4096, .i32⟩ : BufTy).Contents (Elt Ideal)) : (⟨S4096x1, .i32⟩ : BufTy).Contents (Elt Ideal) :=
  broadcastInDim S4096x1 ![0] bcast_S4096_S4096x1_0 (normVec l)

/-- The in-bounds test of each start index: 0 ≤ index and index ≤ 9999. -/
def maskCol (l : (⟨S4096, .i32⟩ : BufTy).Contents (Elt Ideal)) : (⟨S4096x1, .i1⟩ : BufTy).Contents (Elt Ideal) :=
  andi (cmpi .sge (idxCol l) (broadcastInDim S4096x1 ![] bcast_S_S4096x1 (constantI S_ 32 0#32)))
    (cmpi .sle (idxCol l) (broadcastInDim S4096x1 ![0, 1] bcast_S1x1_S4096x1_0_1
      (broadcastInDim S1x1 ![1] bcast_S1_S1x1_1 (constantI S1 32 9999#32))))

/-- The test and-reduced over the unit axis: one bit per sample. -/
def maskVec (l : (⟨S4096, .i32⟩ : BufTy).Contents (Elt Ideal)) : (⟨S4096, .i1⟩ : BufTy).Contents (Elt Ideal) :=
  Host.reduce IntOp.andi (maskCol l) (constantI S_ 1 1#1) reducesTo_S4096x1_S4096_d1 h_S_

/-- The taken rows: the gathered centre rows where the index is in bounds, a not-a-number elsewhere. -/
def takeVal (c : (⟨S10000x512, .f32⟩ : BufTy).Contents (Elt Ideal)) (l : (⟨S4096, .i32⟩ : BufTy).Contents (Elt Ideal)) :
    (⟨S4096x512, .f32⟩ : BufTy).Contents (Elt Ideal) :=
  select (broadcastInDim S4096x512 ![0] bcast_S4096_S4096x512_0 (maskVec l))
    (Host.gather gather_S10000x512_S4096x1_S4096x512_1_0_n_n_0_1_1512 c (idxCol l))
    (broadcastInDim S4096x512 ![] bcast_S_S4096x512 (constant (F := Ideal) S_ .f32 0x7FC00000#32))

/-- What the stretch leaves in its result buffer, as that function of the two arguments it reads. -/
theorem after_take_v3 :
    after (hostOps2 (F := Ideal)) V (Proc.devRef .tc main_v3)
      = takeVal (V (Proc.devRef .tc main_arg2)) (V (Proc.devRef .tc main_arg1)) := by
  after_results_simp <;> rfl

/-! ## The values read at an index -/

/-- The normalized index of sample n is the label's. -/
theorem normVec_apply (l : (⟨S4096, .i32⟩ : BufTy).Contents (Elt Ideal)) (n : Fin 4096) :
    normVec l (ix1 n) = Spec.normIdx (l (ix1 n)) := by
  show Scalar.select (IntOp.cmpi .slt (l (ix1 n)) (broadcastInDim S4096 ![] bcast_S_S4096 (constantI S_ 32 0#32) (ix1 n)))
      (IntOp.addi (l (ix1 n)) (broadcastInDim S4096 ![] bcast_S_S4096 (constantI S_ 32 10000#32) (ix1 n))) (l (ix1 n)) = _
  rw [LibHostRows.broadcastInDim_scalar_apply, LibHostRows.broadcastInDim_scalar_apply]
  rfl

/-- The column of start indices at row n. -/
theorem idxCol_apply (l : (⟨S4096, .i32⟩ : BufTy).Contents (Elt Ideal)) (n : Fin 4096) (z : Fin 1) :
    idxCol l (ix2 n z) = Spec.normIdx (l (ix1 n)) := by
  unfold idxCol
  rw [LibHostRows.broadcastInDim_vec_col_apply, normVec_apply]

/-- The in-bounds test at row n is one when the label is in range. -/
theorem maskCol_apply (l : (⟨S4096, .i32⟩ : BufTy).Contents (Elt Ideal)) (n : Fin 4096) (z : Fin 1)
    (hr : Spec.InRange (l (ix1 n))) : maskCol l (ix2 n z) = 1#1 := by
  show IntOp.andi
      (IntOp.cmpi .sge (idxCol l (ix2 n z)) (broadcastInDim S4096x1 ![] bcast_S_S4096x1 (constantI S_ 32 0#32) (ix2 n z)))
      (IntOp.cmpi .sle (idxCol l (ix2 n z)) (broadcastInDim S4096x1 ![0, 1] bcast_S1x1_S4096x1_0_1
        (broadcastInDim S1x1 ![1] bcast_S1_S1x1_1 (constantI S1 32 9999#32)) (ix2 n z))) = 1#1
  rw [idxCol_apply, LibHostRows.broadcastInDim_scalar_apply, LibHostRows.broadcastInDim_row_apply,
    LibHostRows.broadcastInDim_vec_row_apply]
  show IntOp.andi (IntOp.cmpi .sge (Spec.normIdx (l (ix1 n))) 0#32) (IntOp.cmpi .sle (Spec.normIdx (l (ix1 n))) 9999#32) = 1#1
  rw [hr.1, hr.2]
  rfl

/-- The reduced test at sample n is one when the label is in range. -/
theorem maskVec_apply (l : (⟨S4096, .i32⟩ : BufTy).Contents (Elt Ideal)) (n : Fin 4096)
    (hr : Spec.InRange (l (ix1 n))) : maskVec l (ix1 n) = 1#1 :=
  reduce_andi_unit_one (maskCol l) (constantI S_ 1 1#1) reducesTo_S4096x1_S4096_d1 h_S_ n rfl
    fun z => maskCol_apply l n z hr

/-- The program's gather is table[idx] of the 10000 × 512 table at a 4096 × 1 column of start indices. -/
theorem gather_eq_rowTake :
    gather_S10000x512_S4096x1_S4096x512_1_0_n_n_0_1_1512
      = LibGatherRows.rowTakeDims 10000 512 4096 gather_S10000x512_S4096x1_S4096x512_1_0_n_n_0_1_1512_wf := rfl

/-- The taken rows at (n, d): the table's entry in the label's row. -/
theorem takeVal_apply (c : (⟨S10000x512, .f32⟩ : BufTy).Contents (Elt Ideal)) (l : (⟨S4096, .i32⟩ : BufTy).Contents (Elt Ideal))
    (n : Fin 4096) (d : Fin 512) (hr : Spec.InRange (l (ix1 n))) :
    takeVal c l (ix2 n d) = c (ix2 (Spec.rowOf (l (ix1 n))) d) := by
  show Scalar.select (broadcastInDim S4096x512 ![0] bcast_S4096_S4096x512_0 (maskVec l) (ix2 n d))
      (Host.gather gather_S10000x512_S4096x1_S4096x512_1_0_n_n_0_1_1512 c (idxCol l) (ix2 n d)) _ = _
  rw [bcast_vec_rows_apply, maskVec_apply l n hr, select_one, gather_eq_rowTake,
    gather_rows_at (by decide) _ c (idxCol l) n d _ (idxCol_apply l n 0)]
  rfl

end Take

/-- The taken rows, read at (n, d). -/
theorem take_rows (w : Fin 10000 → Fin 512 → EReal) (lab : Fin 4096 → BitVec 32)
    (hC : ∀ k d, V (Proc.devRef .tc main_arg2) (ix2 k d) = w k d)
    (hL : ∀ n, V (Proc.devRef .tc main_arg1) (ix1 n) = lab n)
    (hr : ∀ n, Spec.InRange (lab n)) (n : Fin 4096) (d : Fin 512) :
    after (hostOps2 (F := Ideal)) V (Proc.devRef .tc main_v3) (ix2 n d) = w (Spec.rowOf (lab n)) d := by
  rw [Take.after_take_v3, Take.takeVal_apply _ _ n d (by rw [hL]; exact hr n), hC, hL]

/-- The stretch writes none of the features, the two kernel results, or the centre table. -/
theorem take_keeps_arg0 : after (hostOps2 (F := Ideal)) V (Proc.devRef .tc main_arg0) = V (Proc.devRef .tc main_arg0) := by
  after_results_simp <;> rfl
theorem take_keeps_v2_0 : after (hostOps2 (F := Ideal)) V (Proc.devRef .tc main_v2_0) = V (Proc.devRef .tc main_v2_0) := by
  after_results_simp <;> rfl
theorem take_keeps_v2_1 : after (hostOps2 (F := Ideal)) V (Proc.devRef .tc main_v2_1) = V (Proc.devRef .tc main_v2_1) := by
  after_results_simp <;> rfl

end Cert.KernelIdeal.KV

end
-- ==== Proof.KHostTail.lean ====
/-
  The kernel program's last host stretch: from any contents holding the features x, the taken centre rows cb, and
  the second region's two results lse and fsq, the 25 operations leave the three scalars
    centre loss = (sum_n sum_d (x n d - cb n d)^2) / 2 / 4096,
    dda loss    = (sum_n ((lse n - fsq n) + sum_d (x n d - cb n d)^2)) / 4096 / 4096 / 2,
    loss        = 0.01 * centre loss + 3 * dda loss.
-/
import proofs.«416865_j89129161327199_2_alg».proof.Proof.Gen.KernelIdeal.Launch
import proofs.«416865_j89129161327199_2_alg».proof.Proof.Spec
import proofs.«416865_j89129161327199_2_alg».proof.Proof.LibHostRows
import proofs.«416865_j89129161327199_2_alg».proof.Proof.LibGatherRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueIdxRank1
import Idealize.ShloMosaic.PureOps.Ideal.Laws

noncomputable section

namespace Cert.KernelIdeal.KV

open Idealize.ShloMosaic Idealize.ShloMosaic.TcCoe Idealize.SL.Sem Idealize.ShloMosaic.ValueIdx Idealize.ShloMosaic.StableHlo
open Cert.KernelIdeal Cert.KernelIdeal.Gen

-- the contents the stretch starts from
variable (V : Valuation τ sig (Elt Ideal))

/-- The squared differences, entry by entry. -/
def sqv : FVec Ideal S4096x512 .f32 :=
  mulf (F := Ideal) (subf (F := Ideal) (V (Proc.devRef .tc main_arg0)) (V (Proc.devRef .tc main_v3))) (subf (F := Ideal) (V (Proc.devRef .tc main_arg0)) (V (Proc.devRef .tc main_v3)))

/-- The zero word as a scalar. -/
def zeroS : FVec Ideal S_ .f32 := constant (F := Ideal) S_ .f32 0x00000000#32

/-- The row sums of the squared differences. -/
def rowsq : FVec Ideal S4096 .f32 :=
  Host.reduceAdd (F := Ideal) (sqv V) zeroS reducesTo_S4096x512_S4096_d1 h_S_

/-- The centre loss as the operations compose it. -/
def centreT : FVec Ideal S_ .f32 :=
  Host.divf (F := Ideal) (Host.divf (F := Ideal) (Host.reduceAdd (F := Ideal) (rowsq V) zeroS reducesTo_S4096_S_d0 h_S_) (constant (F := Ideal) S_ .f32 0x40000000#32)) (constant (F := Ideal) S_ .f32 0x45800000#32)

/-- The per-sample summand of the second loss. -/
def ddaRow : FVec Ideal S4096 .f32 :=
  addf (F := Ideal) (subf (F := Ideal) (V (Proc.devRef .tc main_v2_0)) (V (Proc.devRef .tc main_v2_1))) (rowsq V)

/-- The second loss as the operations compose it. -/
def ddaT : FVec Ideal S_ .f32 :=
  Host.divf (F := Ideal) (Host.divf (F := Ideal) (Host.divf (F := Ideal) (Host.reduceAdd (F := Ideal) (ddaRow V) zeroS reducesTo_S4096_S_d0 h_S_) (constant (F := Ideal) S_ .f32 0x45800000#32)) (constant (F := Ideal) S_ .f32 0x45800000#32)) (constant (F := Ideal) S_ .f32 0x40000000#32)

/-- The total loss as the operations compose it. -/
def lossT : FVec Ideal S_ .f32 :=
  addf (F := Ideal) (mulf (F := Ideal) (constant (F := Ideal) S_ .f32 0x3C23D70A#32) (centreT V)) (mulf (F := Ideal) (constant (F := Ideal) S_ .f32 0x40400000#32) (ddaT V))

/-- The stretch leaves the composed centre loss in its buffer … -/
theorem after_v9 : after (hostOps2_1 (F := Ideal)) V (Proc.devRef .tc main_v9) = centreT V := by
  after_results_simp <;> rfl

/-- … the composed second loss in its buffer … -/
theorem after_v15 : after (hostOps2_1 (F := Ideal)) V (Proc.devRef .tc main_v15) = ddaT V := by
  after_results_simp <;> rfl

/-- … and the composed total in its buffer. -/
theorem after_v18 : after (hostOps2_1 (F := Ideal)) V (Proc.devRef .tc main_v18) = lossT V := by
  after_results_simp <;> rfl

/-- The host's sum of a whole vector into a scalar: the initial value plus the sum of the entries. -/
theorem hostReduceAdd_all_apply {a : ℕ} {φ : FTy} (y : FVec Ideal ⟨1, ![a]⟩ φ) (init : (⟨0, ![]⟩ : Shape).Idx → Ideal φ)
    (h : (⟨1, ![a]⟩ : Shape).ReducesTo [0] ⟨0, ![]⟩) (hu : 0 < (⟨0, ![]⟩ : Shape).numel) (i : (⟨0, ![]⟩ : Shape).Idx) :
    Host.reduceAdd y init h hu i = init ix0 + ∑ n : Fin a, y (ix1 n) := by
  have e0 : Shape.Idx.first hu = ix0 := eq_ix0 _
  unfold Host.reduceAdd
  rw [Ideal.hostReduceAdd_def, Ideal.hostReduceAdd_total h (fun b => b.elim0), e0]
  exact congrArg (fun z => init ix0 + z) (Equiv.sum_comp (idxEquiv1 (n := a)).symm y).symm

/-- The zero word read at the scalar's index is zero. -/
theorem zeroS_apply (i : S_.Idx) : zeroS i = 0 := Ideal.ofBits_zero_f32

section Read

variable (x cb : Fin 4096 → Fin 512 → EReal) (lse fsq : Fin 4096 → EReal)
variable (hX : ∀ n d, V (Proc.devRef .tc main_arg0) (ix2 n d) = x n d)
variable (hcb : ∀ n d, V (Proc.devRef .tc main_v3) (ix2 n d) = cb n d)
variable (hlse : ∀ n, V (Proc.devRef .tc main_v2_0) (ix1 n) = lse n)
variable (hfsq : ∀ n, V (Proc.devRef .tc main_v2_1) (ix1 n) = fsq n)

include hX hcb in
/-- A squared difference at (n, d). -/
theorem sqv_apply (n : Fin 4096) (d : Fin 512) : sqv V (ix2 n d) = (x n d - cb n d) * (x n d - cb n d) := by
  unfold sqv
  rw [mulf_apply, subf_apply, hX, hcb]

include hX hcb in
/-- A row sum at n: the sample's squared distance to its centre row. -/
theorem rowsq_apply (n : Fin 4096) : rowsq V (ix1 n) = ∑ d : Fin 512, (x n d - cb n d) * (x n d - cb n d) := by
  unfold rowsq
  rw [Cert.LibHostRows.hostReduceAdd_rows_apply, zeroS_apply, zero_add]
  exact Finset.sum_congr rfl fun d _ => sqv_apply V x cb hX hcb n d

include hX hcb in
/-- The centre loss read. -/
theorem centreT_apply (i : S_.Idx) :
    centreT V i = Ideal.div (Ideal.div (∑ n : Fin 4096, ∑ d : Fin 512, (x n d - cb n d) * (x n d - cb n d)) Spec.two) Spec.n4096 := by
  unfold centreT
  show Ideal.div (Ideal.div (Host.reduceAdd (F := Ideal) (rowsq V) zeroS reducesTo_S4096_S_d0 h_S_ i) Spec.two) Spec.n4096 = _
  rw [hostReduceAdd_all_apply, zeroS_apply, zero_add]
  exact congrArg (fun z => Ideal.div (Ideal.div z Spec.two) Spec.n4096) (Finset.sum_congr rfl fun n _ => rowsq_apply V x cb hX hcb n)

include hX hcb hlse hfsq in
/-- A summand of the second loss at n. -/
theorem ddaRow_apply (n : Fin 4096) :
    ddaRow V (ix1 n) = (lse n - fsq n) + ∑ d : Fin 512, (x n d - cb n d) * (x n d - cb n d) := by
  unfold ddaRow
  rw [addf_apply, subf_apply, hlse, hfsq, rowsq_apply V x cb hX hcb n]

include hX hcb hlse hfsq in
/-- The second loss read. -/
theorem ddaT_apply (i : S_.Idx) :
    ddaT V i = Ideal.div (Ideal.div (Ideal.div (∑ n : Fin 4096, ((lse n - fsq n) + ∑ d : Fin 512, (x n d - cb n d) * (x n d - cb n d))) Spec.n4096) Spec.n4096) Spec.two := by
  unfold ddaT
  show Ideal.div (Ideal.div (Ideal.div (Host.reduceAdd (F := Ideal) (ddaRow V) zeroS reducesTo_S4096_S_d0 h_S_ i) Spec.n4096) Spec.n4096) Spec.two = _
  rw [hostReduceAdd_all_apply, zeroS_apply, zero_add]
  exact congrArg (fun z => Ideal.div (Ideal.div (Ideal.div z Spec.n4096) Spec.n4096) Spec.two)
    (Finset.sum_congr rfl fun n _ => ddaRow_apply V x cb lse fsq hX hcb hlse hfsq n)

include hX hcb hlse hfsq in
/-- The total read. -/
theorem lossT_apply (i : S_.Idx) :
    lossT V i = Spec.lamb * Ideal.div (Ideal.div (∑ n : Fin 4096, ∑ d : Fin 512, (x n d - cb n d) * (x n d - cb n d)) Spec.two) Spec.n4096
          + Spec.three * Ideal.div (Ideal.div (Ideal.div (∑ n : Fin 4096, ((lse n - fsq n) + ∑ d : Fin 512, (x n d - cb n d) * (x n d - cb n d))) Spec.n4096) Spec.n4096) Spec.two := by
  unfold lossT
  show Spec.lamb * centreT V i + Spec.three * ddaT V i = _
  rw [centreT_apply V x cb hX hcb i, ddaT_apply V x cb lse fsq hX hcb hlse hfsq i]

end Read

/-- The three results of the stretch. -/
theorem tail_results (x cb : Fin 4096 → Fin 512 → EReal) (lse fsq : Fin 4096 → EReal)
    (hX : ∀ n d, V (Proc.devRef .tc main_arg0) (ix2 n d) = x n d)
    (hcb : ∀ n d, V (Proc.devRef .tc main_v3) (ix2 n d) = cb n d)
    (hlse : ∀ n, V (Proc.devRef .tc main_v2_0) (ix1 n) = lse n)
    (hfsq : ∀ n, V (Proc.devRef .tc main_v2_1) (ix1 n) = fsq n) :
    (∀ i, after (hostOps2_1 (F := Ideal)) V (Proc.devRef .tc main_v9) i
        = Ideal.div (Ideal.div (∑ n : Fin 4096, ∑ d : Fin 512, (x n d - cb n d) * (x n d - cb n d)) Spec.two) Spec.n4096)
    ∧ (∀ i, after (hostOps2_1 (F := Ideal)) V (Proc.devRef .tc main_v15) i
        = Ideal.div (Ideal.div (Ideal.div (∑ n : Fin 4096, ((lse n - fsq n) + ∑ d : Fin 512, (x n d - cb n d) * (x n d - cb n d))) Spec.n4096) Spec.n4096) Spec.two)
    ∧ (∀ i, after (hostOps2_1 (F := Ideal)) V (Proc.devRef .tc main_v18) i
        = Spec.lamb * Ideal.div (Ideal.div (∑ n : Fin 4096, ∑ d : Fin 512, (x n d - cb n d) * (x n d - cb n d)) Spec.two) Spec.n4096
          + Spec.three * Ideal.div (Ideal.div (Ideal.div (∑ n : Fin 4096, ((lse n - fsq n) + ∑ d : Fin 512, (x n d - cb n d) * (x n d - cb n d))) Spec.n4096) Spec.n4096) Spec.two) := by
  refine ⟨fun i => ?_, fun i => ?_, fun i => ?_⟩
  · rw [after_v9]; exact centreT_apply V x cb hX hcb i
  · rw [after_v15]; exact ddaT_apply V x cb lse fsq hX hcb hlse hfsq i
  · rw [after_v18]; exact lossT_apply V x cb lse fsq hX hcb hlse hfsq i

end Cert.KernelIdeal.KV

end
-- ==== Proof.KChain.lean ====
/-
  The idealized kernel program's three results as functions of its arguments: the contents at the last boundary of
  @main, walked back through the two host stretches, the second region (log-sum-exp and squared norms per sample),
  the reshape between the regions, and the first region (the copied centres and their squared norms), to the launch
  memory. Needs every label's row index in range (else the take fills in a not-a-number).
-/
import proofs.«416865_j89129161327199_2_alg».proof.Proof.Gen.KernelIdeal.Frame
import proofs.«416865_j89129161327199_2_alg».proof.Proof.Spec
import proofs.«416865_j89129161327199_2_alg».proof.Proof.KRegion0
import proofs.«416865_j89129161327199_2_alg».proof.Proof.KRegion1
import proofs.«416865_j89129161327199_2_alg».proof.Proof.KHostTake
import proofs.«416865_j89129161327199_2_alg».proof.Proof.KHostTail
import Idealize.ShloMosaic.Lib.StableHlo.Run
import Idealize.ShloMosaic.Lib.Pipeline.Value
import Idealize.ShloMosaic.Lib.ValueIdx

noncomputable section

namespace Cert.KernelIdeal.KV

open Idealize.ShloMosaic Idealize.ShloMosaic.TcCoe Idealize.SL.Sem Idealize.ShloMosaic.ValueIdx Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-! ## The three arguments at the boundaries: no stretch and no region writes them -/

/-- A buffer other than the reshape's result passes through the stretch between the regions. -/
theorem reshape_keeps (V : Valuation τ sig (Elt Ideal)) (r : Ref sig .tc) (h : r ≠ main_v1) :
    after (hostOps1 (F := Ideal)) V (Proc.devRef .tc r) = V (Proc.devRef .tc r) := by
  rw [StableHlo.after_cons, StableHlo.after_nil, StableHlo.reshape_result_ne]
  exact h

/-- The reshape's result, a 1 × 10000 row, reads the 10000 × 1 column it reshapes. -/
theorem reshape_row (V : Valuation τ sig (Elt Ideal)) (k : Fin 10000) :
    after (hostOps1 (F := Ideal)) V (Proc.devRef .tc main_v1) (ix2 (0 : Fin 1) k)
      = V (Proc.devRef .tc main_v0_1) (ix2 k (0 : Fin 1)) := by
  rw [StableHlo.after_cons, StableHlo.after_nil, StableHlo.reshape_result]
  show shapeCast S1x10000 (V (Proc.devRef .tc main_v0_1)) _ (ix2 (0 : Fin 1) k) = _
  -- both indices have the row-major position k
  refine shapeCast_apply _ _ _ _ ?_
  show (S10000x1.rowMajor (ix2 k (0 : Fin 1))).val = (S1x10000.rowMajor (ix2 (0 : Fin 1) k)).val
  rw [Shape.rowMajor_val_two, Shape.rowMajor_val_two]
  show k.val * 1 + 0 = 0 * 10000 + k.val
  omega

theorem W1_samples : W1 (F := Ideal) m ρ c (Proc.devRef .tc main_arg0) = m ((c : Thread nD τ).loc main_arg0) :=
  (W1_of_ne m ρ c main_arg0 (by decide)).trans rfl
theorem W1_labels : W1 (F := Ideal) m ρ c (Proc.devRef .tc main_arg1) = m ((c : Thread nD τ).loc main_arg1) :=
  (W1_of_ne m ρ c main_arg1 (by decide)).trans rfl
theorem W1_table : W1 (F := Ideal) m ρ c (Proc.devRef .tc main_arg2) = m ((c : Thread nD τ).loc main_arg2) :=
  ((W1_arr m ρ c 0).trans (((dat0 (V0 m ρ) c).arrAt_in 0 rfl _).trans (A_eq0 (V0 m ρ) c 0))).trans rfl

theorem W2_samples : W2 (F := Ideal) m ρ c (Proc.devRef .tc main_arg0) = m ((c : Thread nD τ).loc main_arg0) :=
  (reshape_keeps _ main_arg0 (by decide)).trans (W1_samples m ρ c)
theorem W2_labels : W2 (F := Ideal) m ρ c (Proc.devRef .tc main_arg1) = m ((c : Thread nD τ).loc main_arg1) :=
  (reshape_keeps _ main_arg1 (by decide)).trans (W1_labels m ρ c)
theorem W2_table : W2 (F := Ideal) m ρ c (Proc.devRef .tc main_arg2) = m ((c : Thread nD τ).loc main_arg2) :=
  (reshape_keeps _ main_arg2 (by decide)).trans (W1_table m ρ c)

theorem W3_samples : W3 (F := Ideal) m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_samples m ρ c)
theorem W3_labels : W3 (F := Ideal) m ρ c (Proc.devRef .tc main_arg1) = m ((c : Thread nD τ).loc main_arg1) :=
  (W3_of_ne m ρ c main_arg1 (by decide)).trans (W2_labels m ρ c)
theorem W3_table : W3 (F := Ideal) m ρ c (Proc.devRef .tc main_arg2) = m ((c : Thread nD τ).loc main_arg2) :=
  (W3_of_ne m ρ c main_arg2 (by decide)).trans (W2_table m ρ c)

/-! ## The first region's two results, and the row the reshape makes of the second -/

/-- After the first region the copied table holds the centre table. -/
theorem W1_centres (k : Fin 10000) (d : Fin 512) :
    W1 (F := Ideal) m ρ c (Proc.devRef .tc main_v0_0) (ix2 k d) = m ((c : Thread nD τ).loc main_arg2) (ix2 k d) :=
  (congrFun (W1_arr (F := Ideal) m ρ c 1) (ix2 k d)).trans
    (arr0_1 (V0 m ρ) c (fun k d => m ((c : Thread nD τ).loc main_arg2) (ix2 k d)) (fun _ _ => rfl) k d)

/-- After the first region the 10000 × 1 column holds the centres' squared norms. -/
theorem W1_norms (k : Fin 10000) :
    W1 (F := Ideal) m ρ c (Proc.devRef .tc main_v0_1) (ix2 k (0 : Fin 1))
      = Spec.csq (fun k d => m ((c : Thread nD τ).loc main_arg2) (ix2 k d)) k :=
  (congrFun (W1_arr (F := Ideal) m ρ c 2) (ix2 k (0 : Fin 1))).trans
    (arr0_2 (V0 m ρ) c (fun k d => m ((c : Thread nD τ).loc main_arg2) (ix2 k d)) (fun _ _ => rfl) k)

theorem W2_centres (k : Fin 10000) (d : Fin 512) :
    W2 (F := Ideal) m ρ c (Proc.devRef .tc main_v0_0) (ix2 k d) = m ((c : Thread nD τ).loc main_arg2) (ix2 k d) :=
  (congrFun (reshape_keeps _ main_v0_0 (by decide)) (ix2 k d)).trans (W1_centres m ρ c k d)

theorem W2_norms (k : Fin 10000) :
    W2 (F := Ideal) m ρ c (Proc.devRef .tc main_v1) (ix2 (0 : Fin 1) k)
      = Spec.csq (fun k d => m ((c : Thread nD τ).loc main_arg2) (ix2 k d)) k :=
  (reshape_row _ k).trans (W1_norms m ρ c k)

/-! ## The second region's two results -/

/-- After the second region: each sample's row log-sum-exp. -/
theorem W3_lse (n : Fin 4096) :
    W3 (F := Ideal) m ρ c (Proc.devRef .tc main_v2_0) (ix1 n)
      = Spec.lseK (fun n d => m ((c : Thread nD τ).loc main_arg0) (ix2 n d))
          (fun k d => m ((c : Thread nD τ).loc main_arg2) (ix2 k d)) n :=
  (congrFun (W3_arr (F := Ideal) m ρ c 3) (ix1 n)).trans
    (arr1_3 (V2 m ρ) c _ _ (fun n d => congrFun (W2_samples m ρ c) (ix2 n d)) (W2_centres m ρ c) (W2_norms m ρ c) n)

/-- After the second region: each sample's squared norm. -/
theorem W3_fsq (n : Fin 4096) :
    W3 (F := Ideal) m ρ c (Proc.devRef .tc main_v2_1) (ix1 n)
      = Spec.fsq (fun n d => m ((c : Thread nD τ).loc main_arg0) (ix2 n d)) n :=
  (congrFun (W3_arr (F := Ideal) m ρ c 4) (ix1 n)).trans
    (arr1_4 (V2 m ρ) c _ (fun n d => congrFun (W2_samples m ρ c) (ix2 n d)) n)

/-! ## The take, and the last stretch -/

/-- The three results at the last boundary: the total loss, the centre loss, the second loss. -/
theorem chain_results
    (hr : ∀ n : Fin 4096, Spec.InRange (m ((c.tc : Thread nD τ).loc main_arg1) (ix1 n))) :
    (∀ i, W5 (F := Ideal) m ρ c (Proc.devRef .tc main_v18) i
        = Spec.lossK (fun n d => m ((c.tc : Thread nD τ).loc main_arg0) (ix2 n d)) (fun k d => m ((c.tc : Thread nD τ).loc main_arg2) (ix2 k d))
            (fun n => Spec.rowOf (m ((c.tc : Thread nD τ).loc main_arg1) (ix1 n))))
    ∧ (∀ i, W5 (F := Ideal) m ρ c (Proc.devRef .tc main_v9) i
        = Spec.centerK (fun n d => m ((c.tc : Thread nD τ).loc main_arg0) (ix2 n d)) (fun k d => m ((c.tc : Thread nD τ).loc main_arg2) (ix2 k d))
            (fun n => Spec.rowOf (m ((c.tc : Thread nD τ).loc main_arg1) (ix1 n))))
    ∧ (∀ i, W5 (F := Ideal) m ρ c (Proc.devRef .tc main_v15) i
        = Spec.ddaK (fun n d => m ((c.tc : Thread nD τ).loc main_arg0) (ix2 n d)) (fun k d => m ((c.tc : Thread nD τ).loc main_arg2) (ix2 k d))
            (fun n => Spec.rowOf (m ((c.tc : Thread nD τ).loc main_arg1) (ix1 n)))) := by
  -- the contents after the take: the samples, each sample's own centre row, and the second region's two results
  have hX : ∀ n d, W4 (F := Ideal) m ρ c (Proc.devRef .tc main_arg0) (ix2 n d) = m ((c.tc : Thread nD τ).loc main_arg0) (ix2 n d) :=
    fun n d => congrFun ((take_keeps_arg0 (W3 m ρ c)).trans (W3_samples m ρ c)) (ix2 n d)
  have hcb : ∀ n d, W4 (F := Ideal) m ρ c (Proc.devRef .tc main_v3) (ix2 n d)
      = m ((c.tc : Thread nD τ).loc main_arg2) (ix2 (Spec.rowOf (m ((c.tc : Thread nD τ).loc main_arg1) (ix1 n))) d) :=
    fun n d => take_rows (W3 m ρ c) (fun k d => m ((c.tc : Thread nD τ).loc main_arg2) (ix2 k d))
      (fun n => m ((c.tc : Thread nD τ).loc main_arg1) (ix1 n))
      (fun k d => congrFun (W3_table m ρ c) (ix2 k d)) (fun n => congrFun (W3_labels m ρ c) (ix1 n)) hr n d
  have hlse : ∀ n, W4 (F := Ideal) m ρ c (Proc.devRef .tc main_v2_0) (ix1 n)
      = Spec.lseK (fun n d => m ((c.tc : Thread nD τ).loc main_arg0) (ix2 n d))
          (fun k d => m ((c.tc : Thread nD τ).loc main_arg2) (ix2 k d)) n :=
    fun n => (congrFun (take_keeps_v2_0 (W3 m ρ c)) (ix1 n)).trans (W3_lse m ρ c n)
  have hfsq : ∀ n, W4 (F := Ideal) m ρ c (Proc.devRef .tc main_v2_1) (ix1 n)
      = Spec.fsq (fun n d => m ((c.tc : Thread nD τ).loc main_arg0) (ix2 n d)) n :=
    fun n => (congrFun (take_keeps_v2_1 (W3 m ρ c)) (ix1 n)).trans (W3_fsq m ρ c n)
  obtain ⟨h9, h15, h18⟩ := tail_results (W4 m ρ c) _ _ _ _ hX hcb hlse hfsq
  exact ⟨fun i => (h18 i).trans rfl, fun i => (h9 i).trans rfl, fun i => (h15 i).trans rfl⟩

end Cert.KernelIdeal.KV

end
-- ==== Proof.RefFold.lean ====
/-
  The reference program's three result buffers, after its 86 operations run from the launch contents, hold the
  last stages of the operation-by-operation reading: the fold of the operations is the composition of their stages.

  The fold is taken stretch by stretch. Each of the five consecutive stretches of the operation list is read over an
  ARBITRARY valuation of the buffers: at its result buffer it holds the stage of that buffer, given that the buffers
  it reads hold their stages; the buffers a later stretch still reads it leaves as they were. The five readings are
  then composed along  after (l₁ ++ l₂) V = after l₂ (after l₁ V).
-/
import proofs.«416865_j89129161327199_2_alg».proof.Proof.RefRead
import proofs.«416865_j89129161327199_2_alg».proof.Proof.Spec
import proofs.«416865_j89129161327199_2_alg».proof.Proof.LibHostRows
import proofs.«416865_j89129161327199_2_alg».proof.Proof.LibGatherRows
import Idealize.ShloMosaic.Lib.StableHlo.Run
import Idealize.ShloMosaic.Lib.StableHlo.Predicate
import Idealize.ShloMosaic.Lib.Pipeline.Value
import Idealize.ShloMosaic.Lib.Pipeline.Frame
import Idealize.ShloMosaic.Lib.ValueIdx
import Idealize.ShloMosaic.Lib.ValueIdxRank1
import Idealize.ShloMosaic.Lib.ReduceAll
import Idealize.ShloMosaic.PureOps.Ideal.Laws

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ValueP Cert.ReferenceIdeal.ReadP

/-- Contents carried to a typed reference's buffer and read back are the contents: the two transports along the
    reference's type equation cancel, whatever the reference is. -/
theorem ofBuf_toBuf {sig : RefSig} {Val : EltTy → Type} {T : BufTy} (x : TRef sig T) (v : T.Contents Val) :
    x.ofBuf (x.toBuf v) = v := by
  obtain ⟨r, h, _, _⟩ := x
  subst h
  rfl

/-! ## The five stretches, each over an arbitrary valuation -/

section Stretches

variable {F : FTy → Type} [FloatOps F] (V : Valuation τ sig (Elt F))

/-! ### Operations 1 to 17: the centre loss -/

/-- The centre loss's buffer after the first stretch: its stage at the three argument buffers' contents. -/
theorem opsA_v11 : after (opsA (F := F)) V (Proc.devRef .tc main_v11)
    = val_main_v11 (F := F) (V (Proc.devRef .tc main_arg0)) (V (Proc.devRef .tc main_arg1)) (V (Proc.devRef .tc main_arg2)) := by
  after_results_simp
  rfl

/-- The first stretch writes no argument buffer. -/
theorem opsA_arg0 : after (opsA (F := F)) V (Proc.devRef .tc main_arg0) = V (Proc.devRef .tc main_arg0) := by
  after_results_simp
theorem opsA_arg1 : after (opsA (F := F)) V (Proc.devRef .tc main_arg1) = V (Proc.devRef .tc main_arg1) := by
  after_results_simp
theorem opsA_arg2 : after (opsA (F := F)) V (Proc.devRef .tc main_arg2) = V (Proc.devRef .tc main_arg2) := by
  after_results_simp

/-! ### Operations 18 to 34: the negated squared distances -/

/-- The distances' buffer after the second stretch: its stage at the features' and the centres' contents. -/
theorem opsB_v25 : after (opsB (F := F)) V (Proc.devRef .tc main_v25)
    = val_main_v25 (F := F) (V (Proc.devRef .tc main_arg0)) (V (Proc.devRef .tc main_arg2)) := by
  after_results_simp
  rfl

/-- The second stretch writes neither the centre loss's buffer nor the labels'. -/
theorem opsB_v11 : after (opsB (F := F)) V (Proc.devRef .tc main_v11) = V (Proc.devRef .tc main_v11) := by
  after_results_simp
theorem opsB_arg1 : after (opsB (F := F)) V (Proc.devRef .tc main_arg1) = V (Proc.devRef .tc main_arg1) := by
  after_results_simp

/-! ### Operations 35 to 49: the log-softmax (an inlined function: its operations are over typed references) -/

/-- The log-softmax's buffer after the third stretch, from a valuation whose distances' buffer holds its stage.
    Every value of the inlined body is written through its typed reference and read back through the same one, so the
    transports cancel pairwise (`ofBuf_toBuf`); what is left is the composition of the fifteen stages. -/
theorem opsC_v26 (X : (⟨S4096x512, .f32⟩ : BufTy).Contents (Elt F)) (C : (⟨S10000x512, .f32⟩ : BufTy).Contents (Elt F))
    (h25 : V (Proc.devRef .tc main_v25) = val_main_v25 (F := F) X C) :
    after (opsC (F := F)) V (Proc.devRef .tc main_v26) = val_main_v26 (F := F) X C := by
  after_results_simp
  simp only [ofBuf_toBuf]
  rw [h25]
  rfl

/-- The third stretch writes neither the centre loss's buffer nor the labels'. -/
theorem opsC_v11 : after (opsC (F := F)) V (Proc.devRef .tc main_v11) = V (Proc.devRef .tc main_v11) := by
  after_results_simp
theorem opsC_arg1 : after (opsC (F := F)) V (Proc.devRef .tc main_arg1) = V (Proc.devRef .tc main_arg1) := by
  after_results_simp

/-! ### Operations 50 to 72: the log-softmax read at each sample's own class (the second inlined function) -/

/-- The gathered column's buffer after the fourth stretch, from a valuation whose log-softmax buffer holds its stage
    and whose labels' buffer holds the labels. -/
theorem opsD_v28 (X : (⟨S4096x512, .f32⟩ : BufTy).Contents (Elt F)) (lab : (⟨S4096, .i32⟩ : BufTy).Contents (Elt F))
    (C : (⟨S10000x512, .f32⟩ : BufTy).Contents (Elt F))
    (h26 : V (Proc.devRef .tc main_v26) = val_main_v26 (F := F) X C) (h1 : V (Proc.devRef .tc main_arg1) = lab) :
    after (opsD (F := F)) V (Proc.devRef .tc main_v28) = val_main_v28 (F := F) X lab C := by
  after_results_simp
  simp only [ofBuf_toBuf]
  rw [h26, h1]
  rfl

/-- The fourth stretch does not write the centre loss's buffer. -/
theorem opsD_v11 : after (opsD (F := F)) V (Proc.devRef .tc main_v11) = V (Proc.devRef .tc main_v11) := by
  after_results_simp

/-! ### Operations 73 to 86: the mean, its sign and scalings, and the total loss -/

/-- The second loss's buffer after the last stretch, from a valuation whose gathered column holds its stage. -/
theorem opsE_v33 (X : (⟨S4096x512, .f32⟩ : BufTy).Contents (Elt F)) (lab : (⟨S4096, .i32⟩ : BufTy).Contents (Elt F))
    (C : (⟨S10000x512, .f32⟩ : BufTy).Contents (Elt F))
    (h28 : V (Proc.devRef .tc main_v28) = val_main_v28 (F := F) X lab C) :
    after (opsE (F := F)) V (Proc.devRef .tc main_v33) = val_main_v33 (F := F) X lab C := by
  after_results_simp
  rw [h28]
  rfl

/-- The total loss's buffer after the last stretch, from a valuation whose gathered column and centre loss hold
    their stages. -/
theorem opsE_v36 (X : (⟨S4096x512, .f32⟩ : BufTy).Contents (Elt F)) (lab : (⟨S4096, .i32⟩ : BufTy).Contents (Elt F))
    (C : (⟨S10000x512, .f32⟩ : BufTy).Contents (Elt F))
    (h28 : V (Proc.devRef .tc main_v28) = val_main_v28 (F := F) X lab C)
    (h11 : V (Proc.devRef .tc main_v11) = val_main_v11 (F := F) X lab C) :
    after (opsE (F := F)) V (Proc.devRef .tc main_v36) = val_main_v36 (F := F) X lab C := by
  after_results_simp
  rw [h28, h11]
  rfl

/-- The last stretch does not write the centre loss's buffer. -/
theorem opsE_v11 : after (opsE (F := F)) V (Proc.devRef .tc main_v11) = V (Proc.devRef .tc main_v11) := by
  after_results_simp

end Stretches

/-! ## The composition from the launch contents -/

variable (m : (ℓ : Loc nD τ sig) → Buf (Elt Ideal) ℓ) (c : Dev nD)

/-- The launch contents at an argument buffer are the memory's contents at that buffer's location. -/
theorem launch_arg0 : launchContents m c (Proc.devRef .tc main_arg0) = m ((c.tc : Thread nD τ).loc main_arg0) := rfl
theorem launch_arg1 : launchContents m c (Proc.devRef .tc main_arg1) = m ((c.tc : Thread nD τ).loc main_arg1) := rfl
theorem launch_arg2 : launchContents m c (Proc.devRef .tc main_arg2) = m ((c.tc : Thread nD τ).loc main_arg2) := rfl

/-- After the first stretch the centre loss's buffer holds its stage. -/
theorem atA_v11 : after (opsA (F := Ideal)) (launchContents m c) (Proc.devRef .tc main_v11)
    = val_main_v11 (F := Ideal) (m ((c.tc : Thread nD τ).loc main_arg0)) (m ((c.tc : Thread nD τ).loc main_arg1)) (m ((c.tc : Thread nD τ).loc main_arg2)) := by
  rw [opsA_v11, launch_arg0, launch_arg1, launch_arg2]

/-- After the second stretch the distances' buffer holds its stage. -/
theorem atB_v25 : after (opsB (F := Ideal)) (after opsA (launchContents m c)) (Proc.devRef .tc main_v25)
    = val_main_v25 (F := Ideal) (m ((c.tc : Thread nD τ).loc main_arg0)) (m ((c.tc : Thread nD τ).loc main_arg2)) := by
  rw [opsB_v25, opsA_arg0, opsA_arg2, launch_arg0, launch_arg2]

/-- After the second stretch the labels' buffer still holds the labels. -/
theorem atB_arg1 : after (opsB (F := Ideal)) (after opsA (launchContents m c)) (Proc.devRef .tc main_arg1)
    = m ((c.tc : Thread nD τ).loc main_arg1) := by
  rw [opsB_arg1, opsA_arg1, launch_arg1]

/-- After the fourth stretch the gathered column's buffer holds its stage. -/
theorem atD_v28 : after (opsD (F := Ideal)) (after opsC (after opsB (after opsA (launchContents m c)))) (Proc.devRef .tc main_v28)
    = val_main_v28 (F := Ideal) (m ((c.tc : Thread nD τ).loc main_arg0)) (m ((c.tc : Thread nD τ).loc main_arg1)) (m ((c.tc : Thread nD τ).loc main_arg2)) :=
  opsD_v28 _ _ _ _ (opsC_v26 _ _ _ (atB_v25 m c)) (by rw [opsC_arg1, atB_arg1])

/-- After the fourth stretch the centre loss's buffer still holds its stage. -/
theorem atD_v11 : after (opsD (F := Ideal)) (after opsC (after opsB (after opsA (launchContents m c)))) (Proc.devRef .tc main_v11)
    = val_main_v11 (F := Ideal) (m ((c.tc : Thread nD τ).loc main_arg0)) (m ((c.tc : Thread nD τ).loc main_arg1)) (m ((c.tc : Thread nD τ).loc main_arg2)) := by
  rw [opsD_v11, opsC_v11, opsB_v11, atA_v11]

/-- The centre loss's buffer. -/
theorem fold_v11 : after (ops (F := Ideal)) (launchContents m c) (Proc.devRef .tc main_v11)
    = val_main_v11 (F := Ideal) (m ((c.tc : Thread nD τ).loc main_arg0)) (m ((c.tc : Thread nD τ).loc main_arg1)) (m ((c.tc : Thread nD τ).loc main_arg2)) := by
  rw [ops_cut, after_append, after_append, after_append, after_append, opsE_v11, atD_v11]

/-- The second loss's buffer. -/
theorem fold_v33 : after (ops (F := Ideal)) (launchContents m c) (Proc.devRef .tc main_v33)
    = val_main_v33 (F := Ideal) (m ((c.tc : Thread nD τ).loc main_arg0)) (m ((c.tc : Thread nD τ).loc main_arg1)) (m ((c.tc : Thread nD τ).loc main_arg2)) := by
  rw [ops_cut, after_append, after_append, after_append, after_append]
  exact opsE_v33 _ _ _ _ (atD_v28 m c)

/-- The total loss's buffer. -/
theorem fold_v36 : after (ops (F := Ideal)) (launchContents m c) (Proc.devRef .tc main_v36)
    = val_main_v36 (F := Ideal) (m ((c.tc : Thread nD τ).loc main_arg0)) (m ((c.tc : Thread nD τ).loc main_arg1)) (m ((c.tc : Thread nD τ).loc main_arg2)) := by
  rw [ops_cut, after_append, after_append, after_append, after_append]
  exact opsE_v36 _ _ _ _ (atD_v28 m c) (atD_v11 m c)

end Cert.ReferenceIdeal.RV

end
-- ==== Proof.RefIdxA.lean ====
/-
  The reference's first stages read at an index: the centre loss, as the double sum of squared differences between
  each sample and the centre row its label picks, halved and divided by the batch size; and the negated squared
  distance of sample n to centre k in its expanded form -((|x_n|^2 + |w_k|^2) - 2 <x_n, w_k>).
-/
import proofs.«416865_j89129161327199_2_alg».proof.Proof.RefRead
import proofs.«416865_j89129161327199_2_alg».proof.Proof.Spec
import proofs.«416865_j89129161327199_2_alg».proof.Proof.LibHostRows
import proofs.«416865_j89129161327199_2_alg».proof.Proof.LibGatherRows
import Idealize.ShloMosaic.Lib.StableHlo.Run
import Idealize.ShloMosaic.Lib.StableHlo.Predicate
import Idealize.ShloMosaic.Lib.Pipeline.Value
import Idealize.ShloMosaic.Lib.Pipeline.Frame
import Idealize.ShloMosaic.Lib.ValueIdx
import Idealize.ShloMosaic.Lib.ValueIdxRank1
import Idealize.ShloMosaic.Lib.ReduceAll
import Idealize.ShloMosaic.PureOps.Ideal.Laws

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ValueP Cert.ReferenceIdeal.ReadP

variable (X : (⟨S4096x512, .f32⟩ : BufTy).Contents (Elt Ideal)) (lab : (⟨S4096, .i32⟩ : BufTy).Contents (Elt Ideal))
  (C : (⟨S10000x512, .f32⟩ : BufTy).Contents (Elt Ideal))

/-! The stages towards the two statements, each read at an index. -/
namespace StagesA

/-! ## The centre loss -/

/-- The gather's start index for sample n: the label with a negative value counted from the end. -/
theorem start_read (n : Fin 4096) :
    val_main_v5 (F := Ideal) lab (ix2 n (0 : Fin 1)) = Spec.normIdx (lab (ix1 n)) := by
  have e : idx_main_v5 (ix2 n (0 : Fin 1)) = ix1 n :=
    funext fun a => Fin.ext (by match a with | ⟨0, _⟩ => rfl)
  rw [val_main_v5_apply, e, val_main_v4_apply, val_main_v1_apply, val_main_v3_apply, val_main_v0_apply,
    val_main_v2_apply, val_main_c_apply, val_main_c_0_apply]
  rfl

/-- The program's gather of centre rows is the gather of whole rows of a table at a column of start indices. -/
theorem gather_rows_dims : gather_S10000x512_S4096x1_S4096x512_1_0_n_n_0_1_1512
    = Cert.LibGatherRows.rowTakeDims 10000 512 4096 Facts₀.gather_S10000x512_S4096x1_S4096x512_1_0_n_n_0_1_1512_wf := rfl

/-- The gathered centre rows read at (n, d): the centre table at the row sample n's label picks, column d. -/
theorem gathered_read (w : Fin 10000 → Fin 512 → EReal) (hC : ∀ k d, C (ix2 k d) = w k d) (n : Fin 4096) (d : Fin 512) :
    val_main_v6 (F := Ideal) lab C (ix2 n d) = w (Spec.rowOf (lab (ix1 n))) d := by
  unfold val_main_v6
  rw [gather_rows_dims]
  refine (Cert.LibGatherRows.gather_rows_apply (N := 10000) (D := 512) (R := 4096) (by decide) _ C
    (val_main_v5 (F := Ideal) lab) n d).trans ?_
  -- the clamped start index is the row the label picks
  have hr : (⟨min (val_main_v5 (F := Ideal) lab (ix2 n (0 : Fin 1))).toInt.toNat (10000 - 1), by omega⟩ : Fin 10000)
      = Spec.rowOf (lab (ix1 n)) := Fin.ext (by
    show min (val_main_v5 (F := Ideal) lab (ix2 n (0 : Fin 1))).toInt.toNat (10000 - 1)
      = min (Spec.normIdx (lab (ix1 n))).toInt.toNat 9999
    rw [start_read lab n])
  rw [hr, hC]

/-! ## The negated squared distances -/

/-- The sample norms broadcast along the centres, read at (n, k): the squared norm of sample n. -/
theorem fsq_read (x : Fin 4096 → Fin 512 → EReal) (hX : ∀ n d, X (ix2 n d) = x n d) (n : Fin 4096) (k : Fin 10000) :
    val_main_v19 (F := Ideal) X (ix2 n k) = Spec.fsq x n := by
  have e : ∀ d : Fin 512, idx_main_v13 (idx_main_v14 (idx_main_v19 (ix2 n k))) d = ix2 n d := fun d =>
    funext fun a => Fin.ext (by match a with | ⟨0, _⟩ => rfl | ⟨1, _⟩ => rfl)
  rw [val_main_v19_apply, val_main_v14_apply, val_main_v13_apply, val_main_cst_3_apply, Ideal.ofBits_def,
    Ideal.ofBits_zero_f32, zero_add]
  unfold Spec.fsq
  refine Finset.sum_congr rfl fun d _ => ?_
  rw [val_main_v12_apply, e d, hX n d, Ideal.mulf_def]

/-- The centre norms broadcast down the samples, read at (n, k): the squared norm of centre k. -/
theorem csq_read (w : Fin 10000 → Fin 512 → EReal) (hC : ∀ k d, C (ix2 k d) = w k d) (n : Fin 4096) (k : Fin 10000) :
    val_main_v20 (F := Ideal) C (ix2 n k) = Spec.csq w k := by
  have e : ∀ d : Fin 512, idx_main_v16 (idx_main_v18 (idx_main_v20 (ix2 n k))) d = ix2 k d := fun d =>
    funext fun a => Fin.ext (by match a with | ⟨0, _⟩ => rfl | ⟨1, _⟩ => rfl)
  rw [val_main_v20_apply, val_main_v18_apply, val_main_v16_apply, val_main_cst_4_apply, Ideal.ofBits_def,
    Ideal.ofBits_zero_f32, zero_add]
  unfold Spec.csq
  refine Finset.sum_congr rfl fun d _ => ?_
  rw [val_main_v15_apply, e d, hC k d, Ideal.mulf_def]

/-- The matrix of inner products read at (n, k): the inner product of sample n and centre k. -/
theorem cross_read (x : Fin 4096 → Fin 512 → EReal) (w : Fin 10000 → Fin 512 → EReal)
    (hX : ∀ n d, X (ix2 n d) = x n d) (hC : ∀ k d, C (ix2 k d) = w k d) (n : Fin 4096) (k : Fin 10000) :
    val_main_v17 (F := Ideal) X C (ix2 n k) = Spec.cross x w n k := by
  have el : ∀ d : Fin 512, lidx_main_v17 (ix2 n k) d = ix2 n d := fun d =>
    funext fun a => Fin.ext (by match a with | ⟨0, _⟩ => rfl | ⟨1, _⟩ => rfl)
  have er : ∀ d : Fin 512, ridx_main_v17 (ix2 n k) d = ix2 k d := fun d =>
    funext fun a => Fin.ext (by match a with | ⟨0, _⟩ => rfl | ⟨1, _⟩ => rfl)
  rw [val_main_v17_apply]
  unfold Spec.cross
  refine Finset.sum_congr rfl fun d _ => ?_
  rw [el d, er d, hX n d, hC k d]

end StagesA

open StagesA

/-! ## The two readings -/

/-- The centre loss. The gather clamps its start index, so no range condition is needed here. -/
theorem center_read (x : Fin 4096 → Fin 512 → EReal) (w : Fin 10000 → Fin 512 → EReal)
    (hX : ∀ n d, X (ix2 n d) = x n d) (hC : ∀ k d, C (ix2 k d) = w k d) (i : S_.Idx) :
    val_main_v11 (F := Ideal) X lab C i = Spec.centerR x w (fun n => Spec.rowOf (lab (ix1 n))) := by
  rw [val_main_v11_apply, val_main_v10_apply, val_main_v9_apply, val_main_cst_apply, val_main_cst_1_apply,
    val_main_cst_2_apply, Ideal.ofBits_def, Ideal.ofBits_def, Ideal.ofBits_def, Ideal.ofBits_zero_f32, zero_add,
    Ideal.hostDivf_def, Ideal.hostDivf_def, sum_idx2]
  unfold Spec.centerR
  refine congrArg (fun s => Ideal.div (Ideal.div s Spec.two) Spec.n4096) ?_
  refine Finset.sum_congr rfl fun n _ => Finset.sum_congr rfl fun d _ => ?_
  rw [val_main_v8_apply, val_main_v7_apply, gathered_read lab C w hC n d, hX n d, Ideal.mulf_def, Ideal.subf_def]

/-- The negated squared distances. -/
theorem dist_read (x : Fin 4096 → Fin 512 → EReal) (w : Fin 10000 → Fin 512 → EReal)
    (hX : ∀ n d, X (ix2 n d) = x n d) (hC : ∀ k d, C (ix2 k d) = w k d) (n : Fin 4096) (k : Fin 10000) :
    val_main_v25 (F := Ideal) X C (ix2 n k) = Spec.dist x w n k := by
  rw [val_main_v25_apply, val_main_v24_apply, val_main_v21_apply, val_main_v23_apply, val_main_v22_apply,
    val_main_cst_5_apply, fsq_read X x hX n k, csq_read C w hC n k, cross_read X C x w hX hC n k]
  rfl

end Cert.ReferenceIdeal.RV

end
-- ==== Proof.RefIdxB.lean ====
/-
  The reference's log-softmax read at an index: for a matrix dd of logits (4096 rows, 10000 classes), with
  M n = max (-inf) (max_k dd n k) the row maximum, the result at (n, k) is
  (dd n k - M n) - log (sum_k' exp (dd n k' - M n)).
-/
import proofs.«416865_j89129161327199_2_alg».proof.Proof.RefRead
import proofs.«416865_j89129161327199_2_alg».proof.Proof.Spec
import proofs.«416865_j89129161327199_2_alg».proof.Proof.LibHostRows
import proofs.«416865_j89129161327199_2_alg».proof.Proof.LibGatherRows
import Idealize.ShloMosaic.Lib.StableHlo.Run
import Idealize.ShloMosaic.Lib.StableHlo.Predicate
import Idealize.ShloMosaic.Lib.Pipeline.Value
import Idealize.ShloMosaic.Lib.Pipeline.Frame
import Idealize.ShloMosaic.Lib.ValueIdx
import Idealize.ShloMosaic.Lib.ValueIdxRank1
import Idealize.ShloMosaic.Lib.ReduceAll
import Idealize.ShloMosaic.PureOps.Ideal.Laws

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ValueP Cert.ReferenceIdeal.ReadP

variable (X : (⟨S4096x512, .f32⟩ : BufTy).Contents (Elt Ideal)) (C : (⟨S10000x512, .f32⟩ : BufTy).Contents (Elt Ideal))

namespace LogSoftmax

/-! ## The indices the layout operations read, at (n, k) -/

theorem idx_v4_ix2 (n : Fin 4096) (k : Fin 10000) :
    idx_main_call0_v4 (ix2 n k) = ix2 n (0 : Fin 1) := by
  funext a; match a with | ⟨0, _⟩ => rfl | ⟨1, _⟩ => rfl

theorem idx_v3_ix2 (n : Fin 4096) (z : Fin 1) : idx_main_call0_v3 (ix2 n z) = ix1 n := by
  funext a; match a with | ⟨0, _⟩ => rfl

theorem idx_v10_ix2 (n : Fin 4096) (k : Fin 10000) :
    idx_main_call0_v10 (ix2 n k) = ix2 n (0 : Fin 1) := by
  funext a; match a with | ⟨0, _⟩ => rfl | ⟨1, _⟩ => rfl

theorem idx_v8_ix2 (n : Fin 4096) (z : Fin 1) : idx_main_call0_v8 (ix2 n z) = ix1 n := by
  funext a; match a with | ⟨0, _⟩ => rfl

theorem idx_v7_ix1 (n : Fin 4096) (k : Fin 10000) : idx_main_call0_v7 (ix1 n) k = ix2 n k := by
  funext a; match a with | ⟨0, _⟩ => rfl | ⟨1, _⟩ => rfl

/-! ## The host's maximum over the second axis, read at a row -/

/-- The host's reduction by maximum over the second axis of an a × b array, read at row r: the fold of max,
    from the initial value, over the row's b entries. -/
theorem hostReduce_max_rows_apply {a b : ℕ} {φ : FTy} (x : FVec Ideal ⟨2, ![a, b]⟩ φ)
    (init : (⟨0, ![]⟩ : Shape).Idx → Ideal φ) (h : (⟨2, ![a, b]⟩ : Shape).ReducesTo [1] ⟨1, ![a]⟩)
    (hu : 0 < (⟨0, ![]⟩ : Shape).numel) (r : Fin a) :
    Host.reduce FloatOps.maximumf x init h hu (ix1 r)
      = (Finset.univ : Finset (Fin b)).fold max (init ix0) (fun k => x (ix2 r k)) := by
  have hR : (⟨2, ![a, b]⟩ : Shape).Reduces [1] ⟨1, ![a]⟩ := ⟨h.1, Nat.one_pos, h.2⟩
  rw [Host.reduce_eq_fold_single FloatOps.maximumf x init h hR hu, eq_ix0 (Shape.Idx.first hu)]
  show (Finset.univ : Finset (Fin b)).fold max (init ix0) (x ∘ hR.lift (ix1 r)) = _
  refine congrArg (fun f => Finset.fold max (init ix0) f (Finset.univ : Finset (Fin b)))
    (funext fun k => congrArg x ?_)
  funext c
  match c with
  | ⟨0, _⟩ => exact Fin.ext rfl
  | ⟨1, _⟩ => exact Fin.ext rfl

/-! ## The stages, one by one -/

section Stages

variable (dd : Fin 4096 → Fin 10000 → EReal)

/-- The row maximum of the logits, folded from -inf and taken once more against -inf. -/
def rowMax (n : Fin 4096) : EReal :=
  max Spec.negInf ((Finset.univ : Finset (Fin 10000)).fold max Spec.negInf (fun k' => dd n k'))

/-- The folded maximum of row n. -/
theorem v0_read (h25 : ∀ n k, val_main_v25 (F := Ideal) X C (ix2 n k) = dd n k) (n : Fin 4096) :
    val_main_call0_v0 (F := Ideal) X C (ix1 n)
      = (Finset.univ : Finset (Fin 10000)).fold max Spec.negInf (fun k' => dd n k') := by
  unfold val_main_call0_v0
  rw [hostReduce_max_rows_apply]
  refine congrArg (fun f => Finset.fold max _ f (Finset.univ : Finset (Fin 10000))) (funext fun k => h25 n k)

/-- The maximum against the broadcast -inf. -/
theorem v2_read (h25 : ∀ n k, val_main_v25 (F := Ideal) X C (ix2 n k) = dd n k) (n : Fin 4096) :
    val_main_call0_v2 (F := Ideal) X C (ix1 n) = rowMax dd n := by
  rw [val_main_call0_v2_apply, v0_read X C dd h25, val_main_call0_v1_apply]
  rfl

/-- The shifted logit. -/
theorem v5_read (h25 : ∀ n k, val_main_v25 (F := Ideal) X C (ix2 n k) = dd n k) (n : Fin 4096)
    (k : Fin 10000) : val_main_call0_v5 (F := Ideal) X C (ix2 n k) = dd n k - rowMax dd n := by
  rw [val_main_call0_v5_apply, val_main_call0_v4_apply, idx_v4_ix2, val_main_call0_v3_apply, idx_v3_ix2,
    v2_read X C dd h25, h25]
  rfl

/-- The row sum of the exponentials. -/
theorem v7_read (h25 : ∀ n k, val_main_v25 (F := Ideal) X C (ix2 n k) = dd n k) (n : Fin 4096) :
    val_main_call0_v7 (F := Ideal) X C (ix1 n) = ∑ k' : Fin 10000, Ideal.exp (dd n k' - rowMax dd n) := by
  rw [val_main_call0_v7_apply, val_main_call0_cst_1_apply, Ideal.ofBits_def, Ideal.ofBits_zero_f32, zero_add]
  refine Finset.sum_congr rfl fun k _ => ?_
  rw [idx_v7_ix1, val_main_call0_v6_apply, v5_read X C dd h25]
  rfl

/-- The logarithm of the row sum, broadcast along the row. -/
theorem v10_read (h25 : ∀ n k, val_main_v25 (F := Ideal) X C (ix2 n k) = dd n k) (n : Fin 4096)
    (k : Fin 10000) :
    val_main_call0_v10 (F := Ideal) X C (ix2 n k)
      = Ideal.log (∑ k' : Fin 10000, Ideal.exp (dd n k' - rowMax dd n)) := by
  rw [val_main_call0_v10_apply, idx_v10_ix2, val_main_call0_v9_apply, val_main_call0_v8_apply, idx_v8_ix2,
    v7_read X C dd h25]
  rfl

end Stages

end LogSoftmax

/-- The log-softmax of whatever the distances' buffer holds. -/
theorem logp_read (dd : Fin 4096 → Fin 10000 → EReal)
    (h25 : ∀ n k, val_main_v25 (F := Ideal) X C (ix2 n k) = dd n k) (n : Fin 4096) (k : Fin 10000) :
    val_main_v26 (F := Ideal) X C (ix2 n k)
      = (dd n k - max Spec.negInf ((Finset.univ : Finset (Fin 10000)).fold max Spec.negInf (fun k' => dd n k')))
        - Ideal.log (∑ k' : Fin 10000, Ideal.exp (dd n k' - max Spec.negInf ((Finset.univ : Finset (Fin 10000)).fold max Spec.negInf (fun k'' => dd n k'')))) := by
  rw [val_main_v26_apply, LogSoftmax.v5_read X C dd h25, LogSoftmax.v10_read X C dd h25]
  rfl

end Cert.ReferenceIdeal.RV

end
-- ==== Proof.RefIdxC.lean ====
/-
  The reference's last stages read at an index: the log-softmax picked at each sample's own class (in range, so the
  gather's in-bounds mask keeps the gathered value), then the mean over the batch, negated, divided by the batch
  size and by two, and the total loss.
-/
import proofs.«416865_j89129161327199_2_alg».proof.Proof.RefRead
import proofs.«416865_j89129161327199_2_alg».proof.Proof.Spec
import proofs.«416865_j89129161327199_2_alg».proof.Proof.LibHostRows
import proofs.«416865_j89129161327199_2_alg».proof.Proof.LibGatherRows
import Idealize.ShloMosaic.Lib.StableHlo.Run
import Idealize.ShloMosaic.Lib.StableHlo.Predicate
import Idealize.ShloMosaic.Lib.Pipeline.Value
import Idealize.ShloMosaic.Lib.Pipeline.Frame
import Idealize.ShloMosaic.Lib.ValueIdx
import Idealize.ShloMosaic.Lib.ValueIdxRank1
import Idealize.ShloMosaic.Lib.ReduceAll
import Idealize.ShloMosaic.PureOps.Ideal.Laws

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ValueP Cert.ReferenceIdeal.ReadP

variable (X : (⟨S4096x512, .f32⟩ : BufTy).Contents (Elt Ideal)) (lab : (⟨S4096, .i32⟩ : BufTy).Contents (Elt Ideal))
  (C : (⟨S10000x512, .f32⟩ : BufTy).Contents (Elt Ideal))

/-- A fold over an index set of one element is that element combined with the initial value. -/
private theorem fold_fin_unit {β : Type} {m : Nat} (hm : m = 1) (f : β → β → β) [Std.Commutative f] [Std.Associative f]
    (b : β) (g : Fin m → β) : (Finset.univ : Finset (Fin m)).fold f b g = f (g ⟨0, by omega⟩) b := by
  subst hm
  rw [Finset.univ_unique, Finset.fold_singleton]
  rfl

/-- The label column's index (n, 0) reads the label vector at n. -/
private theorem idx_label_col (n : Fin 4096) : idx_main_v27 (ix2 n (0 : Fin 1)) = ix1 n := by
  funext a
  match a with
  | ⟨0, _⟩ => rfl

/-- The reshaped index (n, 0, 0) of the 4096 x 1 x 1 start indices is the column's index (n, 0). -/
private theorem idx_reshape (n : Fin 4096) :
    idx_main_call1_v5 (ix3 n (0 : Fin 1) (0 : Fin 1)) = ix2 n (0 : Fin 1) := by
  funext a
  refine Fin.ext ?_
  match a with
  | ⟨0, _⟩ =>
    show ((n.val * 1 + 0) * 1 + 0) / 1 = n.val
    omega
  | ⟨1, _⟩ => rfl

/-- The start index of sample n: its label with a negative value counted from the end. -/
private theorem start_word (n : Fin 4096) :
    val_main_call1_v5 (F := Ideal) lab (ix3 n (0 : Fin 1) (0 : Fin 1)) = Spec.normIdx (lab (ix1 n)) := by
  rw [val_main_call1_v5_apply, idx_reshape, val_main_call1_v4_apply, val_main_call1_v1_apply, val_main_call1_v3_apply,
    val_main_v27_apply, idx_label_col, val_main_call1_v0_apply, val_main_call1_c_apply, val_main_call1_v2_apply,
    val_main_call1_c_0_apply]
  rfl

/-- The result index (n, 0) with the coordinate 0 put back on the reduced unit axis is (n, 0, 0). -/
private theorem lift_unit (h : S4096x1x1.Reduces [2] S4096x1) (n : Fin 4096) (k : Fin (S4096x1x1.size 2)) :
    h.lift (ix2 n (0 : Fin 1)) k = ix3 n (0 : Fin 1) (0 : Fin 1) := by
  funext c
  refine Fin.ext ?_
  match c with
  | ⟨0, _⟩ => rfl
  | ⟨1, _⟩ => rfl
  | ⟨2, _⟩ =>
    show k.val = 0
    have := k.isLt
    change k.val < 1 at this
    omega

/-- The in-bounds mask of an in-range label is 1: both comparisons hold, and the conjunction over the unit axis
    is the conjunction of that one element with the initial 1. -/
private theorem mask_one (n : Fin 4096) (hr : Spec.InRange (lab (ix1 n))) :
    val_main_call1_v12 (F := Ideal) lab (ix2 n (0 : Fin 1)) = 1#1 := by
  have hR : S4096x1x1.Reduces [2] S4096x1 :=
    ⟨Facts₀.reducesTo_S4096x1x1_S4096x1_d2.1, Nat.zero_lt_two, Facts₀.reducesTo_S4096x1x1_S4096x1_d2.2⟩
  unfold val_main_call1_v12
  rw [Host.reduce_eq_fold_single IntOp.andi _ _ Facts₀.reducesTo_S4096x1x1_S4096x1_d2 hR Facts₀.h_S_]
  rw [fold_fin_unit (rfl : S4096x1x1.size 2 = 1), Function.comp_apply, lift_unit, val_main_call1_c_3_apply,
    val_main_call1_v11_apply, val_main_call1_v7_apply, val_main_call1_v10_apply, start_word, val_main_call1_v6_apply,
    val_main_call1_c_2_apply, val_main_call1_v9_apply, val_main_call1_v8_apply, val_main_call1_c_1_apply, hr.1, hr.2]
  rfl

/-- The reference's gather record is the take-along-axis record of a 4096 x 10000 array. -/
private theorem gather_record_eq :
    gather_S4096x10000_S4096x1x1_S4096x1_n_1_0_0_1_2_11
      = Cert.LibGatherRows.alongDims 4096 10000 Facts₀.gather_S4096x10000_S4096x1x1_S4096x1_n_1_0_0_1_2_11_wf := rfl

/-- The gathered value of sample n: the log-softmax at (n, the row of n's label). -/
private theorem gathered_read (n : Fin 4096) :
    val_main_call1_v13 (F := Ideal) X lab C (ix2 n (0 : Fin 1))
      = val_main_v26 (F := Ideal) X C (ix2 n (Spec.rowOf (lab (ix1 n)))) := by
  unfold val_main_call1_v13
  rw [gather_record_eq, Cert.LibGatherRows.gather_along_apply (by decide)]
  refine congrArg (fun k => val_main_v26 (F := Ideal) X C (ix2 n k)) (Fin.ext ?_)
  show min (val_main_call1_v5 (F := Ideal) lab (ix3 n (0 : Fin 1) (0 : Fin 1))).toInt.toNat (10000 - 1)
    = min (Spec.normIdx (lab (ix1 n))).toInt.toNat 9999
  rw [start_word]

/-- The picked log-probabilities: a 4096 x 1 column. -/
theorem picked_read (lp : Fin 4096 → Fin 10000 → EReal)
    (h26 : ∀ n k, val_main_v26 (F := Ideal) X C (ix2 n k) = lp n k)
    (hr : ∀ n : Fin 4096, Spec.InRange (lab (ix1 n))) (n : Fin 4096) :
    val_main_v28 (F := Ideal) X lab C (ix2 n (0 : Fin 1)) = lp n (Spec.rowOf (lab (ix1 n))) := by
  -- the mask is 1, so the select keeps the gathered value: the log-softmax at the row of n's label
  rw [val_main_v28_apply, mask_one lab n (hr n), select_one, gathered_read, h26]

/-- The second loss and the total loss from the picked column g and the centre loss cl. -/
theorem tail_read (g : Fin 4096 → EReal) (cl : EReal)
    (h28 : ∀ n, val_main_v28 (F := Ideal) X lab C (ix2 n (0 : Fin 1)) = g n)
    (h11 : ∀ i, val_main_v11 (F := Ideal) X lab C i = cl) :
    (∀ i, val_main_v33 (F := Ideal) X lab C i
        = Ideal.div (Ideal.div (-(Ideal.div (∑ n : Fin 4096, g n) Spec.n4096)) Spec.n4096) Spec.two)
    ∧ (∀ i, val_main_v36 (F := Ideal) X lab C i
        = Spec.lamb * cl + Spec.three * Ideal.div (Ideal.div (-(Ideal.div (∑ n : Fin 4096, g n) Spec.n4096)) Spec.n4096) Spec.two) := by
  -- the sum over every index of the 4096 x 1 column, from the zero word, is the sum of its 4096 entries
  have h29 : ∀ i, val_main_v29 (F := Ideal) X lab C i = ∑ n : Fin 4096, g n := by
    intro i
    rw [val_main_v29_apply, val_main_cst_6_apply, Ideal.ofBits_def, Ideal.ofBits_zero_f32, zero_add, sum_idx2]
    refine Finset.sum_congr rfl fun n _ => ?_
    rw [Fin.sum_univ_one, h28]
  -- divided by the batch size, negated, divided by the batch size and by two
  have h33 : ∀ i, val_main_v33 (F := Ideal) X lab C i
      = Ideal.div (Ideal.div (-(Ideal.div (∑ n : Fin 4096, g n) Spec.n4096)) Spec.n4096) Spec.two := by
    intro i
    rw [val_main_v33_apply, val_main_v32_apply, val_main_v31_apply, val_main_v30_apply, h29, val_main_cst_7_apply,
      val_main_cst_8_apply, val_main_cst_9_apply]
    simp only [Ideal.hostDivf_def, Ideal.hostNegf_def, Ideal.negf_def, Ideal.ofBits_def]
  refine ⟨h33, fun i => ?_⟩
  -- the total: 0.01 times the centre loss plus 3 times the second loss
  rw [val_main_v36_apply, val_main_v34_apply, val_main_v35_apply, h33, h11, val_main_cst_10_apply,
    val_main_cst_11_apply]
  simp only [Ideal.addf_def, Ideal.mulf_def, Ideal.ofBits_def]

end Cert.ReferenceIdeal.RV

end
-- ==== Proof.RefValue.lean ====
/-
  The reference program's three results as functions of its arguments: the fold of its operations is the last
  stage (RefFold), and the stages read at an index give, in turn, the expanded negated squared distances, their
  log-softmax, its value at each sample's own class, and the means and scalings — the reference side of the
  specification. Needs every label's row index in range (else the pick fills in a not-a-number).
-/
import proofs.«416865_j89129161327199_2_alg».proof.Proof.RefFold
import proofs.«416865_j89129161327199_2_alg».proof.Proof.RefIdxA
import proofs.«416865_j89129161327199_2_alg».proof.Proof.RefIdxB
import proofs.«416865_j89129161327199_2_alg».proof.Proof.RefIdxC

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ValueP Cert.ReferenceIdeal.ReadP

variable (m : (ℓ : Loc nD τ sig) → Buf (Elt Ideal) ℓ) (c : Dev nD)

/-- The three results after the run: the total loss, the centre loss, the second loss. -/
theorem ref_results
    (hr : ∀ n : Fin 4096, Spec.InRange (m ((c.tc : Thread nD τ).loc main_arg1) (ix1 n))) :
    (∀ i, after (ops (F := Ideal)) (launchContents m c) (Proc.devRef .tc main_v36) i
        = Spec.lossR (fun n d => m ((c.tc : Thread nD τ).loc main_arg0) (ix2 n d)) (fun k d => m ((c.tc : Thread nD τ).loc main_arg2) (ix2 k d))
            (fun n => Spec.rowOf (m ((c.tc : Thread nD τ).loc main_arg1) (ix1 n))))
    ∧ (∀ i, after (ops (F := Ideal)) (launchContents m c) (Proc.devRef .tc main_v11) i
        = Spec.centerR (fun n d => m ((c.tc : Thread nD τ).loc main_arg0) (ix2 n d)) (fun k d => m ((c.tc : Thread nD τ).loc main_arg2) (ix2 k d))
            (fun n => Spec.rowOf (m ((c.tc : Thread nD τ).loc main_arg1) (ix1 n))))
    ∧ (∀ i, after (ops (F := Ideal)) (launchContents m c) (Proc.devRef .tc main_v33) i
        = Spec.ddaR (fun n d => m ((c.tc : Thread nD τ).loc main_arg0) (ix2 n d)) (fun k d => m ((c.tc : Thread nD τ).loc main_arg2) (ix2 k d))
            (fun n => Spec.rowOf (m ((c.tc : Thread nD τ).loc main_arg1) (ix1 n)))) := by
  -- the stages over the three argument arrays
  have hX : ∀ (n : Fin 4096) (d : Fin 512), m ((c.tc : Thread nD τ).loc main_arg0) (ix2 n d)
      = (fun n d => m ((c.tc : Thread nD τ).loc main_arg0) (ix2 n d)) n d := fun _ _ => rfl
  have hC : ∀ (k : Fin 10000) (d : Fin 512), m ((c.tc : Thread nD τ).loc main_arg2) (ix2 k d)
      = (fun k d => m ((c.tc : Thread nD τ).loc main_arg2) (ix2 k d)) k d := fun _ _ => rfl
  -- the distances, their log-softmax, and its value at each sample's class
  have h25 := dist_read (m ((c.tc : Thread nD τ).loc main_arg0)) (m ((c.tc : Thread nD τ).loc main_arg2)) _ _ hX hC
  have h26 := logp_read (m ((c.tc : Thread nD τ).loc main_arg0)) (m ((c.tc : Thread nD τ).loc main_arg2)) _ h25
  have h28 := picked_read (m ((c.tc : Thread nD τ).loc main_arg0)) (m ((c.tc : Thread nD τ).loc main_arg1))
    (m ((c.tc : Thread nD τ).loc main_arg2)) _ h26 hr
  -- the centre loss
  have h11 := center_read (m ((c.tc : Thread nD τ).loc main_arg0)) (m ((c.tc : Thread nD τ).loc main_arg1))
    (m ((c.tc : Thread nD τ).loc main_arg2)) _ _ hX hC
  -- the tail
  obtain ⟨h33, h36⟩ := tail_read (m ((c.tc : Thread nD τ).loc main_arg0)) (m ((c.tc : Thread nD τ).loc main_arg1))
    (m ((c.tc : Thread nD τ).loc main_arg2)) _ _ h28 h11
  refine ⟨fun i => ?_, fun i => ?_, fun i => ?_⟩
  · rw [fold_v36]; exact h36 i
  · rw [fold_v11]; exact h11 i
  · rw [fold_v33]; exact h33 i

end Cert.ReferenceIdeal.RV

end
-- ==== Proof.lean ====
/-
  The certificate of the centre-loss / distance-softmax kernel against its jnp reference, over the extended reals.

  Both programs return three scalars from x (4096 x 512 features), the labels and w (10000 x 512 class centres):
    the centre loss   (sum_n |x_n - w_{l n}|^2) / 2 / 4096,
    a second loss built from the log-softmax over the classes of the negated squared distances -|x_n - w_c|^2,
    read at each sample's own class l n, averaged, negated, divided by 4096 and by 2,
    and 0.01 * the first + 3 * the second.
  The reference expands the distances as -((|x_n|^2 + |w_c|^2) - 2 <x_n, w_c>) and takes jax's log_softmax.
  The kernel drops the row constant |x_n|^2: one region copies the centres and sums their squares, a second region
  computes per sample the log-sum-exp of s n c = 2 <x_n, w_c> - |w_c|^2 and |x_n|^2, and host operations add back
  lse n - |x_n|^2 + |x_n - w_{l n}|^2, which is minus the log-softmax at l n because
  |x_n - w_c|^2 = |x_n|^2 - s n c. On finite inputs the shift by the row maximum cancels and the two
  log-sum-exp arguments are the same extended reals (Proof/Math.lean).
  The precondition: every float input finite, and every label's row index (a negative label counted from the end)
  inside the 10000 rows — outside it the kernel's take fills in a not-a-number where the reference's gather clamps.

  The modules: Spec (both sides as explicit functions), Math (their equality), PreFacts (the precondition decoded),
  KRegion0 / KRegion1 (what the two regions leave in their output arrays), KHostTake / KHostTail (the kernel's host
  stretches), KChain (the walk through the boundaries), KernelRun (the run with its results), RefRun / RefRead / RefFold /
  RefIdxA / RefIdxB / RefIdxC / RefValue (the reference's run and its stages read at an index), and the general lemmas
  LibVecRows, LibVecRowMax, LibHostRows, LibGatherRows.
-/
import proofs.«416865_j89129161327199_2_alg».proof.Defs
import proofs.«416865_j89129161327199_2_alg».proof.Proof.Gen.Kernel
import proofs.«416865_j89129161327199_2_alg».proof.Proof.Gen.Kernel.Skeleton
import proofs.«416865_j89129161327199_2_alg».proof.Proof.Gen.Kernel.Launch
import proofs.«416865_j89129161327199_2_alg».proof.Proof.Gen.Kernel.Points
import proofs.«416865_j89129161327199_2_alg».proof.Proof.Gen.Kernel.Frame
import proofs.«416865_j89129161327199_2_alg».proof.Proof.Gen.KernelIdeal
import proofs.«416865_j89129161327199_2_alg».proof.Proof.Gen.KernelIdeal.Skeleton
import proofs.«416865_j89129161327199_2_alg».proof.Proof.Gen.KernelIdeal.Launch
import proofs.«416865_j89129161327199_2_alg».proof.Proof.Gen.KernelIdeal.Points
import proofs.«416865_j89129161327199_2_alg».proof.Proof.Gen.KernelIdeal.Frame
import proofs.«416865_j89129161327199_2_alg».proof.Proof.Gen.ReferenceIdeal
import proofs.«416865_j89129161327199_2_alg».proof.Proof.Gen.Pre_finite_inputs
import proofs.«416865_j89129161327199_2_alg».proof.Proof.Spec
import proofs.«416865_j89129161327199_2_alg».proof.Proof.Math
import proofs.«416865_j89129161327199_2_alg».proof.Proof.PreFacts
import proofs.«416865_j89129161327199_2_alg».proof.Proof.KernelRun
import proofs.«416865_j89129161327199_2_alg».proof.Proof.KChain
import proofs.«416865_j89129161327199_2_alg».proof.Proof.RefRun
import proofs.«416865_j89129161327199_2_alg».proof.Proof.RefValue
import Idealize.ShloMosaic.Adequacy
import Idealize.ShloMosaic.Init

noncomputable section

namespace Cert.Proof

open Idealize.ShloMosaic Idealize.SL.Sem Idealize.ShloMosaic.ValueIdx

/-! ## The frames -/

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run with the results dropped. -/
theorem frame_ri : Cert.frame_ReferenceIdeal := fun m ρ _ =>
  (θ_run Cert.ReferenceIdeal.defs _ _).mono (fun _ h c => (h c).2.2.2)
    (Cert.ReferenceIdeal.ValueP.run (F := Ideal) m ρ)

/-! ## The two programs' results agree -/

/-- From memories agreeing on the three arguments, under the precondition, both programs end with the same three
    scalars: the kernel's are the kernel side of the specification (KChain over KernelRun), the reference's the
    reference side (RefValue over RefRun), and the two sides are equal on finite inputs (Math). -/
theorem algebraic : Cert.algebraic_KernelIdeal_ReferenceIdeal := by
  intro m ρ m' ρ' hpre hagree
  -- the three results, per device, as the kernel side of the specification of the launch arrays
  refine ⟨fun c _ => Spec.lossK (fun n d => m ((c.tc : Thread Cert.KernelIdeal.nD Cert.KernelIdeal.τ).loc Cert.KernelIdeal.main_arg0) (ix2 n d))
        (fun k d => m ((c.tc : Thread Cert.KernelIdeal.nD Cert.KernelIdeal.τ).loc Cert.KernelIdeal.main_arg2) (ix2 k d))
        (fun n => Spec.rowOf (m ((c.tc : Thread Cert.KernelIdeal.nD Cert.KernelIdeal.τ).loc Cert.KernelIdeal.main_arg1) (ix1 n))),
    fun c _ => Spec.centerK (fun n d => m ((c.tc : Thread Cert.KernelIdeal.nD Cert.KernelIdeal.τ).loc Cert.KernelIdeal.main_arg0) (ix2 n d))
        (fun k d => m ((c.tc : Thread Cert.KernelIdeal.nD Cert.KernelIdeal.τ).loc Cert.KernelIdeal.main_arg2) (ix2 k d))
        (fun n => Spec.rowOf (m ((c.tc : Thread Cert.KernelIdeal.nD Cert.KernelIdeal.τ).loc Cert.KernelIdeal.main_arg1) (ix1 n))),
    fun c _ => Spec.ddaK (fun n d => m ((c.tc : Thread Cert.KernelIdeal.nD Cert.KernelIdeal.τ).loc Cert.KernelIdeal.main_arg0) (ix2 n d))
        (fun k d => m ((c.tc : Thread Cert.KernelIdeal.nD Cert.KernelIdeal.τ).loc Cert.KernelIdeal.main_arg2) (ix2 k d))
        (fun n => Spec.rowOf (m ((c.tc : Thread Cert.KernelIdeal.nD Cert.KernelIdeal.τ).loc Cert.KernelIdeal.main_arg1) (ix1 n))),
    ?_, ?_⟩
  · -- the kernel: its run's results are the last boundary's contents, which the chain reads
    refine (θ_run Cert.KernelIdeal.defs _ _).mono (fun r h c => ?_) (Cert.KernelIdeal.KRun.run_results (F := Ideal) m ρ)
    obtain ⟨-, -, hr⟩ := Cert.PreFacts.decode _ _ _ (hpre c)
    obtain ⟨h18, h9, h15⟩ := Cert.KernelIdeal.KV.chain_results m ρ c hr
    obtain ⟨e18, e9, e15, ea0, ea1, ea2⟩ := h c
    exact ⟨e18.trans (funext h18), e9.trans (funext h9), e15.trans (funext h15), ea0, ea1, ea2⟩
  · -- the reference: its run's results are the fold of its operations, which the stages read; its arguments are the
    -- kernel's, so the precondition's facts carry over, and the two sides of the specification are equal
    refine (θ_run Cert.ReferenceIdeal.defs _ _).mono (fun r h c => ?_) (Cert.ReferenceIdeal.ValueP.run (F := Ideal) m' ρ')
    obtain ⟨hx, hw, hr⟩ := Cert.PreFacts.decode _ _ _ (hpre c)
    obtain ⟨ha0, ha1, ha2⟩ := hagree c
    have hr' : ∀ n : Fin 4096, Spec.InRange (m' ((c.tc : Thread Cert.ReferenceIdeal.nD Cert.ReferenceIdeal.τ).loc Cert.ReferenceIdeal.main_arg1) (ix1 n)) := by
      intro n; rw [ha1]; exact hr n
    obtain ⟨h36, h11, h33⟩ := Cert.ReferenceIdeal.RV.ref_results m' c hr'
    obtain ⟨e36, e11, e33, ea0, ea1, ea2⟩ := h c
    refine ⟨e36.trans (funext fun i => ?_), e11.trans (funext fun i => ?_), e33.trans (funext fun i => ?_), ea0, ea1, ea2⟩
    · rw [h36 i, ha0, ha1, ha2]; exact (Cert.Math.loss_eq _ _ _ hx hw).symm
    · rw [h11 i, ha0, ha1, ha2]; exact (Cert.Math.center_eq _ _ _).symm
    · rw [h33 i, ha0, ha1, ha2]; exact (Cert.Math.dda_eq _ _ _ hx hw).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
